-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg1 : IVec S800000 32) (main_v48 : IVec S_ 1) (main_v50 : IVec S800000 1) : IVec S_ 1 :=
  let main_c_19 : IVec S_ 1 := constantI S_ 1 1#1
  let main_v51 : IVec S_ 1 := (fun x v => Host.reduce IntOp.andi x v reducesTo_S800000_S_d0 h_S_) main_v50 main_c_19
  let main_v52 : IVec S_ 1 := andi main_v48 main_v51
  let main_c_20 : IVec S_ 32 := constantI S_ 32 50000#32
  let main_v53 : IVec S800000 32 := broadcastInDim S800000 ![] bcast_S_S800000 main_c_20
  let main_v54 : IVec S800000 1 := cmpi .slt main_arg1 main_v53
  let main_c_21 : IVec S_ 1 := constantI S_ 1 1#1
  let main_v55 : IVec S_ 1 := (fun x v => Host.reduce IntOp.andi x v reducesTo_S800000_S_d0 h_S_) main_v54 main_c_21
  let main_v56 : IVec S_ 1 := andi main_v52 main_v55
  main_v56

def fn_part2 {F : FTy → Type} [FloatOps F] (main_arg1 : IVec S800000 32) (main_arg9 : FVec F S40 .f32) (main_arg10 : FVec F S96 .f32) (main_arg11 : FVec F S96 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_v39 : FVec F S96 .f32 := Host.absf main_arg10
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96 .f32 := Host.absf main_arg11
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_c_18 : IVec S_ 32 := constantI S_ 32 4294917296#32
  let main_v49 : IVec S800000 32 := broadcastInDim S800000 ![] bcast_S_S800000 main_c_18
  let main_v50 : IVec S800000 1 := cmpi .sge main_arg1 main_v49
  fn_part3 (F := F) main_arg1 main_v48 main_v50

def fn_part1 {F : FTy → Type} [FloatOps F] (main_arg1 : IVec S800000 32) (main_arg6 : FVec F S96x96 .f32) (main_arg7 : FVec F S96 .f32) (main_arg8 : FVec F S96x40 .f32) (main_arg9 : FVec F S40 .f32) (main_arg10 : FVec F S96 .f32) (main_arg11 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x40 .f32 := Host.absf main_arg8
  let main_cst_10 : FVec F S_ .f32 := constant S_ .f32 0x7F800000#32
  let main_v30 : FVec F S96x40 .f32 := broadcastInDim S96x40 ![] bcast_S_S96x40 main_cst_10
  let main_v31 : IVec S96x40 1 := cmpf .olt main_v29 main_v30
  let main_c_11 : IVec S_ 1 := constantI S_ 1 1#1
  let main_v32 : IVec S_ 1 := (fun x v => Host.reduce IntOp.andi x v reducesTo_S96x40_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S50000x128 .f32) (main_arg1 : IVec S800000 32) (main_arg2 : IVec S800000 32) (main_arg3 : FVec F S800000 .f32) (main_arg4 : FVec F S128x96 .f32) (main_arg5 : FVec F S96 .f32) (main_arg6 : FVec F S96x96 .f32) (main_arg7 : FVec F S96 .f32) (main_arg8 : FVec F S96x40 .f32) (main_arg9 : FVec F S40 .f32) (main_arg10 : FVec F S96 .f32) (main_arg11 : FVec F S96 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x96 .f32 := Host.absf main_arg4
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg1 main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S50000x96 : Shape := ⟨2, ![50000, 96]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x96 : Shape := ⟨2, ![800000, 96]⟩
abbrev S1x96 : Shape := ⟨2, ![1, 96]⟩
abbrev S50000x32x3 : Shape := ⟨3, ![50000, 32, 3]⟩
abbrev S50000x32 : Shape := ⟨2, ![50000, 32]⟩
abbrev S50000x32x1 : Shape := ⟨3, ![50000, 32, 1]⟩
abbrev S50000x40 : Shape := ⟨2, ![50000, 40]⟩
abbrev S800000x40 : Shape := ⟨2, ![800000, 40]⟩
abbrev S1x40 : Shape := ⟨2, ![1, 40]⟩
abbrev S2000x128 : Shape := ⟨2, ![2000, 128]⟩
abbrev S2000x96 : Shape := ⟨2, ![2000, 96]⟩
abbrev S2000x40 : Shape := ⟨2, ![2000, 40]⟩
abbrev S2000 : Shape := ⟨1, ![2000]⟩
abbrev S2000x1 : Shape := ⟨2, ![2000, 1]⟩

abbrev nBuf : Space → Nat
  | .hbm => 141
  | .vmem => 26
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S128x96, .f32⟩
  | 5 => ⟨S96, .f32⟩
  | 6 => ⟨S96x96, .f32⟩
  | 7 => ⟨S96, .f32⟩
  | 8 => ⟨S96x40, .f32⟩
  | 9 => ⟨S40, .f32⟩
  | 10 => ⟨S96, .f32⟩
  | 11 => ⟨S96, .f32⟩
  | 12 => ⟨S50000x96, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S1, .i32⟩
  | 22 => ⟨S_, .i32⟩
  | 23 => ⟨S800000x1, .i32⟩
  | 24 => ⟨S800000x1, .i1⟩
  | 25 => ⟨S1x1, .i32⟩
  | 26 => ⟨S800000x1, .i32⟩
  | 27 => ⟨S800000x1, .i1⟩
  | 28 => ⟨S800000x1, .i1⟩
  | 29 => ⟨S_, .i1⟩
  | 30 => ⟨S800000, .i1⟩
  | 31 => ⟨S800000x96, .f32⟩
  | 32 => ⟨S800000x96, .i1⟩
  | 33 => ⟨S_, .f32⟩
  | 34 => ⟨S800000x96, .f32⟩
  | 35 => ⟨S800000x96, .f32⟩
  | 36 => ⟨S800000x1, .f32⟩
  | 37 => ⟨S800000x96, .f32⟩
  | 38 => ⟨S800000x96, .f32⟩
  | 39 => ⟨S_, .f32⟩
  | 40 => ⟨S50000x96, .f32⟩
  | 41 => ⟨S800000x1, .i32⟩
  | 42 => ⟨S50000x96, .f32⟩
  | 43 => ⟨S1x96, .f32⟩
  | 44 => ⟨S50000x96, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S1, .i32⟩
  | 54 => ⟨S_, .i32⟩
  | 55 => ⟨S800000x1, .i32⟩
  | 56 => ⟨S800000x1, .i1⟩
  | 57 => ⟨S1x1, .i32⟩
  | 58 => ⟨S800000x1, .i32⟩
  | 59 => ⟨S800000x1, .i1⟩
  | 60 => ⟨S800000x1, .i1⟩
  | 61 => ⟨S_, .i1⟩
  | 62 => ⟨S800000, .i1⟩
  | 63 => ⟨S800000x96, .f32⟩
  | 64 => ⟨S800000x96, .i1⟩
  | 65 => ⟨S_, .f32⟩
  | 66 => ⟨S800000x96, .f32⟩
  | 67 => ⟨S800000x96, .f32⟩
  | 68 => ⟨S800000x1, .f32⟩
  | 69 => ⟨S800000x96, .f32⟩
  | 70 => ⟨S800000x96, .f32⟩
  | 71 => ⟨S_, .f32⟩
  | 72 => ⟨S50000x96, .f32⟩
  | 73 => ⟨S800000x1, .i32⟩
  | 74 => ⟨S50000x96, .f32⟩
  | 75 => ⟨S1x96, .f32⟩
  | 76 => ⟨S50000x96, .f32⟩
  | 77 => ⟨S50000x32x3, .f32⟩
  | 78 => ⟨S_, .f32⟩
  | 79 => ⟨S50000x32, .f32⟩
  | 80 => ⟨S50000x32x1, .f32⟩
  | 81 => ⟨S_, .f32⟩
  | 82 => ⟨S50000x32x1, .f32⟩
  | 83 => ⟨S50000x32x1, .f32⟩
  | 84 => ⟨S50000x32x3, .f32⟩
  | 85 => ⟨S50000x32x3, .f32⟩
  | 86 => ⟨S50000x32x3, .f32⟩
  | 87 => ⟨S_, .f32⟩
  | 88 => ⟨S50000x32, .f32⟩
  | 89 => ⟨S50000x32x1, .f32⟩
  | 90 => ⟨S_, .f32⟩
  | 91 => ⟨S50000x32x1, .f32⟩
  | 92 => ⟨S50000x32x1, .f32⟩
  | 93 => ⟨S50000x32x3, .f32⟩
  | 94 => ⟨S50000x32x3, .f32⟩
  | 95 => ⟨S_, .f32⟩
  | 96 => ⟨S50000x32x1, .f32⟩
  | 97 => ⟨S50000x32x1, .f32⟩
  | 98 => ⟨S50000x32x1, .f32⟩
  | 99 => ⟨S50000x32x3, .f32⟩
  | 100 => ⟨S50000x32x3, .f32⟩
  | 101 => ⟨S50000x96, .f32⟩
  | 102 => ⟨S1x96, .f32⟩
  | 103 => ⟨S50000x96, .f32⟩
  | 104 => ⟨S50000x96, .f32⟩
  | 105 => ⟨S1x96, .f32⟩
  | 106 => ⟨S50000x96, .f32⟩
  | 107 => ⟨S50000x96, .f32⟩
  | 108 => ⟨S50000x40, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S1, .i32⟩
  | 118 => ⟨S_, .i32⟩
  | 119 => ⟨S800000x1, .i32⟩
  | 120 => ⟨S800000x1, .i1⟩
  | 121 => ⟨S1x1, .i32⟩
  | 122 => ⟨S800000x1, .i32⟩
  | 123 => ⟨S800000x1, .i1⟩
  | 124 => ⟨S800000x1, .i1⟩
  | 125 => ⟨S_, .i1⟩
  | 126 => ⟨S800000, .i1⟩
  | 127 => ⟨S800000x40, .f32⟩
  | _ => ⟨S50000x128, .f32⟩

abbrev hbmTy0_1 (i : Nat) : BufTy := match i % 128 with
  | 0 => ⟨S800000x40, .i1⟩
  | 1 => ⟨S_, .f32⟩
  | 2 => ⟨S800000x40, .f32⟩
  | 3 => ⟨S800000x40, .f32⟩
  | 4 => ⟨S800000x1, .f32⟩
  | 5 => ⟨S800000x40, .f32⟩
  | 6 => ⟨S800000x40, .f32⟩
  | 7 => ⟨S_, .f32⟩
  | 8 => ⟨S50000x40, .f32⟩
  | 9 => ⟨S800000x1, .i32⟩
  | 10 => ⟨S50000x40, .f32⟩
  | 11 => ⟨S1x40, .f32⟩
  | 12 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S1x96, .f32⟩
  | .local _ .vmem, ⟨8, _⟩ => ⟨S96x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S2000x96, .f32⟩
  | .local _ .vmem, ⟨13, _⟩ => ⟨S1x96, .f32⟩
  | .local _ .vmem, ⟨14, _⟩ => ⟨S2000x96, .f32⟩
  | .local _ .vmem, ⟨15, _⟩ => ⟨S2000x96, .f32⟩
  | .local _ .vmem, ⟨16, _⟩ => ⟨S2000x96, .f32⟩
  | .local _ .vmem, ⟨17, _⟩ => ⟨S2000x96, .f32⟩
  | .local _ .vmem, ⟨18, _⟩ => ⟨S96x40, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S2000x40, .f32⟩
  | .local _ .vmem, ⟨23, _⟩ => ⟨S1x40, .f32⟩
  | .local _ .vmem, ⟨24, _⟩ => ⟨S2000x40, .f32⟩
  | .local _ .vmem, ⟨25, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_call0_c : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_c_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_c_1 : Ref sig .tc := ⟨.hbm, 21, rfl⟩
abbrev main_call0_call0_c_2 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_c_3 : Ref sig .tc := ⟨.hbm, 29, rfl⟩
abbrev main_call0_call0_v12 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_cst : Ref sig .tc := ⟨.hbm, 33, rfl⟩
abbrev main_call0_call0_v15 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_cst : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_call1_c : Ref sig .tc := ⟨.hbm, 45, rfl⟩
abbrev main_call0_call1_v0 : Ref sig .tc := ⟨.hbm, 46, rfl⟩
abbrev main_call0_call1_v1 : Ref sig .tc := ⟨.hbm, 47, rfl⟩
abbrev main_call0_call1_c_0 : Ref sig .tc := ⟨.hbm, 48, rfl⟩
abbrev main_call0_call1_v2 : Ref sig .tc := ⟨.hbm, 49, rfl⟩
abbrev main_call0_call1_v3 : Ref sig .tc := ⟨.hbm, 50, rfl⟩
abbrev main_call0_call1_v4 : Ref sig .tc := ⟨.hbm, 51, rfl⟩
abbrev main_call0_call1_v5 : Ref sig .tc := ⟨.hbm, 52, rfl⟩
abbrev main_call0_call1_c_1 : Ref sig .tc := ⟨.hbm, 53, rfl⟩
abbrev main_call0_call1_c_2 : Ref sig .tc := ⟨.hbm, 54, rfl⟩
abbrev main_call0_call1_v6 : Ref sig .tc := ⟨.hbm, 55, rfl⟩
abbrev main_call0_call1_v7 : Ref sig .tc := ⟨.hbm, 56, rfl⟩
abbrev main_call0_call1_v8 : Ref sig .tc := ⟨.hbm, 57, rfl⟩
abbrev main_call0_call1_v9 : Ref sig .tc := ⟨.hbm, 58, rfl⟩
abbrev main_call0_call1_v10 : Ref sig .tc := ⟨.hbm, 59, rfl⟩
abbrev main_call0_call1_v11 : Ref sig .tc := ⟨.hbm, 60, rfl⟩
abbrev main_call0_call1_c_3 : Ref sig .tc := ⟨.hbm, 61, rfl⟩
abbrev main_call0_call1_v12 : Ref sig .tc := ⟨.hbm, 62, rfl⟩
abbrev main_call0_call1_v13 : Ref sig .tc := ⟨.hbm, 63, rfl⟩
abbrev main_call0_call1_v14 : Ref sig .tc := ⟨.hbm, 64, rfl⟩
abbrev main_call0_call1_cst : Ref sig .tc := ⟨.hbm, 65, rfl⟩
abbrev main_call0_call1_v15 : Ref sig .tc := ⟨.hbm, 66, rfl⟩
abbrev main_call0_v10 : Ref sig .tc := ⟨.hbm, 67, rfl⟩
abbrev main_call0_v11 : Ref sig .tc := ⟨.hbm, 68, rfl⟩
abbrev main_call0_v12 : Ref sig .tc := ⟨.hbm, 69, rfl⟩
abbrev main_call0_v13 : Ref sig .tc := ⟨.hbm, 70, rfl⟩
abbrev main_call0_cst_0 : Ref sig .tc := ⟨.hbm, 71, rfl⟩
abbrev main_call0_v14 : Ref sig .tc := ⟨.hbm, 72, rfl⟩
abbrev main_call0_v15 : Ref sig .tc := ⟨.hbm, 73, rfl⟩
abbrev main_call0_v16 : Ref sig .tc := ⟨.hbm, 74, rfl⟩
abbrev main_call0_v17 : Ref sig .tc := ⟨.hbm, 75, rfl⟩
abbrev main_call0_v18 : Ref sig .tc := ⟨.hbm, 76, rfl⟩
abbrev main_call0_v19 : Ref sig .tc := ⟨.hbm, 77, rfl⟩
abbrev main_call0_cst_1 : Ref sig .tc := ⟨.hbm, 78, rfl⟩
abbrev main_call0_v20 : Ref sig .tc := ⟨.hbm, 79, rfl⟩
abbrev main_call0_v21 : Ref sig .tc := ⟨.hbm, 80, rfl⟩
abbrev main_call0_cst_2 : Ref sig .tc := ⟨.hbm, 81, rfl⟩
abbrev main_call0_v22 : Ref sig .tc := ⟨.hbm, 82, rfl⟩
abbrev main_call0_v23 : Ref sig .tc := ⟨.hbm, 83, rfl⟩
abbrev main_call0_v24 : Ref sig .tc := ⟨.hbm, 84, rfl⟩
abbrev main_call0_v25 : Ref sig .tc := ⟨.hbm, 85, rfl⟩
abbrev main_call0_v26 : Ref sig .tc := ⟨.hbm, 86, rfl⟩
abbrev main_call0_cst_3 : Ref sig .tc := ⟨.hbm, 87, rfl⟩
abbrev main_call0_v27 : Ref sig .tc := ⟨.hbm, 88, rfl⟩
abbrev main_call0_v28 : Ref sig .tc := ⟨.hbm, 89, rfl⟩
abbrev main_call0_cst_4 : Ref sig .tc := ⟨.hbm, 90, rfl⟩
abbrev main_call0_v29 : Ref sig .tc := ⟨.hbm, 91, rfl⟩
abbrev main_call0_v30 : Ref sig .tc := ⟨.hbm, 92, rfl⟩
abbrev main_call0_v31 : Ref sig .tc := ⟨.hbm, 93, rfl⟩
abbrev main_call0_v32 : Ref sig .tc := ⟨.hbm, 94, rfl⟩
abbrev main_call0_cst_5 : Ref sig .tc := ⟨.hbm, 95, rfl⟩
abbrev main_call0_v33 : Ref sig .tc := ⟨.hbm, 96, rfl⟩
abbrev main_call0_v34 : Ref sig .tc := ⟨.hbm, 97, rfl⟩
abbrev main_call0_v35 : Ref sig .tc := ⟨.hbm, 98, rfl⟩
abbrev main_call0_v36 : Ref sig .tc := ⟨.hbm, 99, rfl⟩
abbrev main_call0_v37 : Ref sig .tc := ⟨.hbm, 100, rfl⟩
abbrev main_call0_v38 : Ref sig .tc := ⟨.hbm, 101, rfl⟩
abbrev main_call0_v39 : Ref sig .tc := ⟨.hbm, 102, rfl⟩
abbrev main_call0_v40 : Ref sig .tc := ⟨.hbm, 103, rfl⟩
abbrev main_call0_v41 : Ref sig .tc := ⟨.hbm, 104, rfl⟩
abbrev main_call0_v42 : Ref sig .tc := ⟨.hbm, 105, rfl⟩
abbrev main_call0_v43 : Ref sig .tc := ⟨.hbm, 106, rfl⟩
abbrev main_call0_v44 : Ref sig .tc := ⟨.hbm, 107, rfl⟩
abbrev main_call0_v45 : Ref sig .tc := ⟨.hbm, 108, rfl⟩
abbrev main_call0_call2_c : Ref sig .tc := ⟨.hbm, 109, rfl⟩
abbrev main_call0_call2_v0 : Ref sig .tc := ⟨.hbm, 110, rfl⟩
abbrev main_call0_call2_v1 : Ref sig .tc := ⟨.hbm, 111, rfl⟩
abbrev main_call0_call2_c_0 : Ref sig .tc := ⟨.hbm, 112, rfl⟩
abbrev main_call0_call2_v2 : Ref sig .tc := ⟨.hbm, 113, rfl⟩
abbrev main_call0_call2_v3 : Ref sig .tc := ⟨.hbm, 114, rfl⟩
abbrev main_call0_call2_v4 : Ref sig .tc := ⟨.hbm, 115, rfl⟩
abbrev main_call0_call2_v5 : Ref sig .tc := ⟨.hbm, 116, rfl⟩
abbrev main_call0_call2_c_1 : Ref sig .tc := ⟨.hbm, 117, rfl⟩
abbrev main_call0_call2_c_2 : Ref sig .tc := ⟨.hbm, 118, rfl⟩
abbrev main_call0_call2_v6 : Ref sig .tc := ⟨.hbm, 119, rfl⟩
abbrev main_call0_call2_v7 : Ref sig .tc := ⟨.hbm, 120, rfl⟩
abbrev main_call0_call2_v8 : Ref sig .tc := ⟨.hbm, 121, rfl⟩
abbrev main_call0_call2_v9 : Ref sig .tc := ⟨.hbm, 122, rfl⟩
abbrev main_call0_call2_v10 : Ref sig .tc := ⟨.hbm, 123, rfl⟩
abbrev main_call0_call2_v11 : Ref sig .tc := ⟨.hbm, 124, rfl⟩
abbrev main_call0_call2_c_3 : Ref sig .tc := ⟨.hbm, 125, rfl⟩
abbrev main_call0_call2_v12 : Ref sig .tc := ⟨.hbm, 126, rfl⟩
abbrev main_call0_call2_v13 : Ref sig .tc := ⟨.hbm, 127, rfl⟩
abbrev main_call0_call2_v14 : Ref sig .tc := ⟨.hbm, 128, rfl⟩
abbrev main_call0_call2_cst : Ref sig .tc := ⟨.hbm, 129, rfl⟩
abbrev main_call0_call2_v15 : Ref sig .tc := ⟨.hbm, 130, rfl⟩
abbrev main_call0_v46 : Ref sig .tc := ⟨.hbm, 131, rfl⟩
abbrev main_call0_v47 : Ref sig .tc := ⟨.hbm, 132, rfl⟩
abbrev main_call0_v48 : Ref sig .tc := ⟨.hbm, 133, rfl⟩
abbrev main_call0_v49 : Ref sig .tc := ⟨.hbm, 134, rfl⟩
abbrev main_call0_cst_6 : Ref sig .tc := ⟨.hbm, 135, rfl⟩
abbrev main_call0_v50 : Ref sig .tc := ⟨.hbm, 136, rfl⟩
abbrev main_call0_v51 : Ref sig .tc := ⟨.hbm, 137, rfl⟩
abbrev main_call0_v52 : Ref sig .tc := ⟨.hbm, 138, rfl⟩
abbrev main_call0_v53 : Ref sig .tc := ⟨.hbm, 139, rfl⟩
abbrev main_v0 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S96_S1x96 : S96.ShapeCasts S1x96
  shapeCasts_S50000x96_S50000x32x3 : S50000x96.ShapeCasts S50000x32x3
  reducesTo_S50000x32x3_S50000x32_d2 : S50000x32x3.ReducesTo [2] S50000x32
  bcast_S50000x32_S50000x32x1_0_1 : S50000x32.BroadcastsInDim S50000x32x1 (![0, 1] : Fin 2 → Fin S50000x32x1.rank)
  bcast_S_S50000x32x1 : S_.BroadcastsInDim S50000x32x1 (![] : Fin 0 → Fin S50000x32x1.rank)
  bcast_S50000x32x1_S50000x32x3_0_1_2 : S50000x32x1.BroadcastsInDim S50000x32x3 (![0, 1, 2] : Fin 3 → Fin S50000x32x3.rank)
  shapeCasts_S50000x32x3_S50000x96 : S50000x32x3.ShapeCasts S50000x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S800000_S800000x40_0 : S800000.BroadcastsInDim S800000x40 (![0] : Fin 1 → Fin S800000x40.rank)
  bcast_S_S800000x40 : S_.BroadcastsInDim S800000x40 (![] : Fin 0 → Fin S800000x40.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S96x96_S96x96_0_0 : ∀ a, (![0, 0] : Fin 2 → Nat) a + S96x96.size a ≤ S96x96.size a
  h_S96x96 : 0 < S96x96.numel
  inb_S96x40_S96x40_0_0 : ∀ a, (![0, 0] : Fin 2 → Nat) a + S96x40.size a ≤ S96x40.size a
  h_S96x40 : 0 < S96x40.numel
  inb_S2000x40_S2000x40_0_0 : ∀ a, (![0, 0] : Fin 2 → Nat) a + S2000x40.size a ≤ S2000x40.size a
  h_S2000x40 : 0 < S2000x40.numel
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  dot_S2000x128_S128x96_S2000x96_1_0_0_1_n_n_wf : DotDims.WF S2000x128 S128x96 S2000x96 [1] [0] [0] [1] [] []
  dot_S2000x96_S96x96_S2000x96_1_0_0_1_n_n_wf : DotDims.WF S2000x96 S96x96 S2000x96 [1] [0] [0] [1] [] []
  dot_S2000x96_S96x40_S2000x40_1_0_0_1_n_n_wf : DotDims.WF S2000x96 S96x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x96.size a ≤ S50000x96.size a
  hwx1_3 : ∀ i : grid1.Coords, EltTy.bits .f32 = 32 ∨ (Rect.block (s := S50000x96) S2000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x96.size a ≤ S50000x96.size a
  hwx2_2 : ∀ i : grid2.Coords, EltTy.bits .f32 = 32 ∨ (Rect.block (s := S50000x96) S2000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x96.size a ≤ S50000x96.size a
  hwx3_0 : ∀ i : grid3.Coords, EltTy.bits .f32 = 32 ∨ (Rect.block (s := S50000x96) S2000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x40.size a ≤ S96x40.size a
  hwx3_1 : ∀ i : grid3.Coords, EltTy.bits .f32 = 32 ∨ (Rect.block (s := S96x40) S96x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S50000x40.size a
  hwx3_2 : ∀ i : grid3.Coords, EltTy.bits .f32 = 32 ∨ (Rect.block (s := S50000x40) S2000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x40.size a ≤ S50000x40.size a
  hwx4_0 : ∀ i : grid4.Coords, EltTy.bits .f32 = 32 ∨ (Rect.block (s := S50000x40) S2000x40.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x40.size a ≤ S1x40.size a
  hwx4_1 : ∀ i : grid4.Coords, EltTy.bits .f32 = 32 ∨ (Rect.block (s := S1x40) S1x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S50000x40.size a
  hwx4_2 : ∀ i : grid4.Coords, EltTy.bits .f32 = 32 ∨ (Rect.block (s := S50000x40) S2000x40.size (cc4_transform_2 i) (hinb4_2 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf
def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def dot_S2000x96_S96x40_S2000x40_1_0_0_1_n_n : DotDims S2000x96 S96x40 S2000x40 where
  lhsContracting := [1]
  rhsContracting := [0]
  lhsNonContracting := [0]
  rhsNonContracting := [1]
  lhsBatch := []
  rhsBatch := []
  wf := dot_S2000x96_S96x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v7) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v8) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v9) S2000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v16) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v17) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v18) S2000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v44) S2000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S96x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v45) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_call0_v52) S2000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v53) S1x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v0) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S50000x96 : Shape := ⟨2, ![50000, 96]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S50000x32x3 : Shape := ⟨3, ![50000, 32, 3]⟩
abbrev S50000x32 : Shape := ⟨2, ![50000, 32]⟩
abbrev S50000x32x1 : Shape := ⟨3, ![50000, 32, 1]⟩
abbrev S50000x40 : Shape := ⟨2, ![50000, 40]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x40, .f32⟩
  | .hbm, ⟨9, _⟩ => ⟨S40, .f32⟩
  | .hbm, ⟨10, _⟩ => ⟨S96, .f32⟩
  | .hbm, ⟨11, _⟩ => ⟨S96, .f32⟩
  | .hbm, ⟨12, _⟩ => ⟨S50000x96, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x96, .f32⟩
  | .hbm, ⟨22, _⟩ => ⟨S800000x1, .f32⟩
  | .hbm, ⟨23, _⟩ => ⟨S800000x96, .f32⟩
  | .hbm, ⟨24, _⟩ => ⟨S800000x96, .f32⟩
  | .hbm, ⟨25, _⟩ => ⟨S_, .f32⟩
  | .hbm, ⟨26, _⟩ => ⟨S50000x96, .f32⟩
  | .hbm, ⟨27, _⟩ => ⟨S800000x1, .i32⟩
  | .hbm, ⟨28, _⟩ => ⟨S50000x96, .f32⟩
  | .hbm, ⟨29, _⟩ => ⟨S1x96, .f32⟩
  | .hbm, ⟨30, _⟩ => ⟨S50000x96, .f32⟩
  | .hbm, ⟨31, _⟩ => ⟨S50000x96, .f32⟩
  | .hbm, ⟨32, _⟩ => ⟨S_, .f32⟩
  | .hbm, ⟨33, _⟩ => ⟨S50000x96, .f32⟩
  | .hbm, ⟨34, _⟩ => ⟨S50000x96, .f32⟩
  | .hbm, ⟨35, _⟩ => ⟨S50000x96, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x96, .f32⟩
  | .hbm, ⟨45, _⟩ => ⟨S800000x1, .f32⟩
  | .hbm, ⟨46, _⟩ => ⟨S800000x96, .f32⟩
  | .hbm, ⟨47, _⟩ => ⟨S800000x96, .f32⟩
  | .hbm, ⟨48, _⟩ => ⟨S_, .f32⟩
  | .hbm, ⟨49, _⟩ => ⟨S50000x96, .f32⟩
  | .hbm, ⟨50, _⟩ => ⟨S800000x1, .i32⟩
  | .hbm, ⟨51, _⟩ => ⟨S50000x96, .f32⟩
  | .hbm, ⟨52, _⟩ => ⟨S1x96, .f32⟩
  | .hbm, ⟨53, _⟩ => ⟨S50000x96, .f32⟩
  | .hbm, ⟨54, _⟩ => ⟨S50000x96, .f32⟩
  | .hbm, ⟨55, _⟩ => ⟨S_, .f32⟩
  | .hbm, ⟨56, _⟩ => ⟨S50000x96, .f32⟩
  | .hbm, ⟨57, _⟩ => ⟨S50000x96, .f32⟩
  | .hbm, ⟨58, _⟩ => ⟨S50000x32x3, .f32⟩
  | .hbm, ⟨59, _⟩ => ⟨S_, .f32⟩
  | .hbm, ⟨60, _⟩ => ⟨S50000x32, .f32⟩
  | .hbm, ⟨61, _⟩ => ⟨S50000x32x1, .f32⟩
  | .hbm, ⟨62, _⟩ => ⟨S_, .f32⟩
  | .hbm, ⟨63, _⟩ => ⟨S50000x32x1, .f32⟩
  | .hbm, ⟨64, _⟩ => ⟨S50000x32x1, .f32⟩
  | .hbm, ⟨65, _⟩ => ⟨S50000x32x3, .f32⟩
  | .hbm, ⟨66, _⟩ => ⟨S50000x32x3, .f32⟩
  | .hbm, ⟨67, _⟩ => ⟨S50000x32x3, .f32⟩
  | .hbm, ⟨68, _⟩ => ⟨S_, .f32⟩
  | .hbm, ⟨69, _⟩ => ⟨S50000x32, .f32⟩
  | .hbm, ⟨70, _⟩ => ⟨S50000x32x1, .f32⟩
  | .hbm, ⟨71, _⟩ => ⟨S_, .f32⟩
  | .hbm, ⟨72, _⟩ => ⟨S50000x32x1, .f32⟩
  | .hbm, ⟨73, _⟩ => ⟨S50000x32x1, .f32⟩
  | .hbm, ⟨74, _⟩ => ⟨S50000x32x3, .f32⟩
  | .hbm, ⟨75, _⟩ => ⟨S50000x32x3, .f32⟩
  | .hbm, ⟨76, _⟩ => ⟨S_, .f32⟩
  | .hbm, ⟨77, _⟩ => ⟨S50000x32x1, .f32⟩
  | .hbm, ⟨78, _⟩ => ⟨S50000x32x1, .f32⟩
  | .hbm, ⟨79, _⟩ => ⟨S50000x32x1, .f32⟩
  | .hbm, ⟨80, _⟩ => ⟨S50000x32x3, .f32⟩
  | .hbm, ⟨81, _⟩ => ⟨S50000x32x3, .f32⟩
  | .hbm, ⟨82, _⟩ => ⟨S50000x96, .f32⟩
  | .hbm, ⟨83, _⟩ => ⟨S1x96, .f32⟩
  | .hbm, ⟨84, _⟩ => ⟨S50000x96, .f32⟩
  | .hbm, ⟨85, _⟩ => ⟨S50000x96, .f32⟩
  | .hbm, ⟨86, _⟩ => ⟨S1x96, .f32⟩
  | .hbm, ⟨87, _⟩ => ⟨S50000x96, .f32⟩
  | .hbm, ⟨88, _⟩ => ⟨S50000x96, .f32⟩
  | .hbm, ⟨89, _⟩ => ⟨S50000x40, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x40, .f32⟩
  | .hbm, ⟨99, _⟩ => ⟨S800000x1, .f32⟩
  | .hbm, ⟨100, _⟩ => ⟨S800000x40, .f32⟩
  | .hbm, ⟨101, _⟩ => ⟨S800000x40, .f32⟩
  | .hbm, ⟨102, _⟩ => ⟨S_, .f32⟩
  | .hbm, ⟨103, _⟩ => ⟨S50000x40, .f32⟩
  | .hbm, ⟨104, _⟩ => ⟨S800000x1, .i32⟩
  | .hbm, ⟨105, _⟩ => ⟨S50000x40, .f32⟩
  | .hbm, ⟨106, _⟩ => ⟨S1x40, .f32⟩
  | .hbm, ⟨107, _⟩ => ⟨S50000x40, .f32⟩
  | .hbm, ⟨108, _⟩ => ⟨S50000x40, .f32⟩
  | .hbm, ⟨109, _⟩ => ⟨S_, .f32⟩
  | .hbm, ⟨110, _⟩ => ⟨S50000, .f32⟩
  | .hbm, ⟨111, _⟩ => ⟨S_, .f32⟩
  | .hbm, ⟨112, _⟩ => ⟨S50000, .f32⟩
  | .hbm, ⟨113, _⟩ => ⟨S50000, .f32⟩
  | .hbm, ⟨114, _⟩ => ⟨S50000x1, .f32⟩
  | .hbm, ⟨115, _⟩ => ⟨S50000x40, .f32⟩
  | .hbm, ⟨116, _⟩ => ⟨S50000x40, .f32⟩
  | .hbm, ⟨117, _⟩ => ⟨S50000x40, .f32⟩
  | .hbm, ⟨118, _⟩ => ⟨S_, .f32⟩
  | .hbm, ⟨119, _⟩ => ⟨S50000, .f32⟩
  | .hbm, ⟨120, _⟩ => ⟨S50000x1, .f32⟩
  | .hbm, ⟨121, _⟩ => ⟨S50000x1, .f32⟩
  | .hbm, ⟨122, _⟩ => ⟨S50000x40, .f32⟩
  | .hbm, ⟨123, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_9 : Ref sig .tc := ⟨.hbm, 90, rfl⟩
abbrev main_v63 : Ref sig .tc := ⟨.hbm, 91, rfl⟩
abbrev main_v64 : Ref sig .tc := ⟨.hbm, 92, rfl⟩
abbrev main_c_10 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_11 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_call2_cst : Ref sig .tc := ⟨.hbm, 109, rfl⟩
abbrev main_call2_v0 : Ref sig .tc := ⟨.hbm, 110, rfl⟩
abbrev main_call2_cst_0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_cst_1 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_v79 : Ref sig .tc := ⟨.hbm, 123, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S50000x96_S50000x32x3 : S50000x96.ShapeCasts S50000x32x3
  reducesTo_S50000x32x3_S50000x32_d2 : S50000x32x3.ReducesTo [2] S50000x32
  h_S_ : 0 < S_.numel
  bcast_S50000x32_S50000x32x1_0_1 : S50000x32.BroadcastsInDim S50000x32x1 (![0, 1] : Fin 2 → Fin S50000x32x1.rank)
  bcast_S_S50000x32x1 : S_.BroadcastsInDim S50000x32x1 (![] : Fin 0 → Fin S50000x32x1.rank)
  bcast_S50000x32x1_S50000x32x3_0_1_2 : S50000x32x1.BroadcastsInDim S50000x32x3 (![0, 1, 2] : Fin 3 → Fin S50000x32x3.rank)
  shapeCasts_S50000x32x3_S50000x96 : S50000x32x3.ShapeCasts S50000x96
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x40_S50000x40_1_0_0_1_n_n_wf : DotDims.WF S50000x96 S96x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.RefLsm.lean ====
import proofs.«421492_j40956808135024_2_alg».proof.Proof.RefRead

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The row maximum of a 50000×40 array (never below −∞), as a 50000×40 array constant along each row. -/
def rowMax (X : (⟨S50000x40, .f32⟩ : BufTy).Contents (Elt F)) : (⟨S50000x40, .f32⟩ : BufTy).Contents (Elt F) :=
  broadcastInDim S50000x40 ![0, 1] bcast_S50000x1_S50000x40_0_1 (broadcastInDim S50000x1 ![0] bcast_S50000_S50000x1_0
    (maximumf (val_main_call2_v1 (F := F)) (Host.reduce FloatOps.maximumf X (val_main_call2_cst (F := F)) reducesTo_S50000x40_S50000_d1 h_S_)))

/-- Row-wise log-softmax: x − max − log Σ exp (x − max). -/
def logSoftmax (X : (⟨S50000x40, .f32⟩ : BufTy).Contents (Elt F)) : (⟨S50000x40, .f32⟩ : BufTy).Contents (Elt F) :=
  subf (subf X (rowMax X))
    (broadcastInDim S50000x40 ![0, 1] bcast_S50000x1_S50000x40_0_1 (Host.log (broadcastInDim S50000x1 ![0] bcast_S50000_S50000x1_0
      (Host.reduceAdd (Host.exp (subf X (rowMax X))) (val_main_call2_cst_1 (F := F)) reducesTo_S50000x40_S50000_d1 h_S_))))

end Cert.ReferenceIdeal.Stages

end
-- ==== Proof.Mask.lean ====
import proofs.«421492_j40956808135024_2_alg».proof.Defs
import proofs.«421492_j40956808135024_2_alg».proof.Proof.Gen.Pre_finite_inputs
import proofs.«421492_j40956808135024_2_alg».proof.Proof.Gen.KernelIdeal
import Idealize.ShloMosaic.Lib.StableHlo.Predicate
import Idealize.ShloMosaic.Lib.ReduceAll

noncomputable section

namespace Cert.Mask

open Idealize.ShloMosaic Idealize.ShloMosaic.TcCoe Idealize.SL.Sem
open Cert.KernelIdeal

/-- Every edge's source index lies in [−50000, 50000): the range in which a row index of a 50000-row table,
    counted from the front or (negative) from the back, names a row. -/
def SrcInRange (x1 : IVec S800000 32) : Prop :=
  ∀ e : S800000.Idx, (-50000 : Int) ≤ (x1 e).toInt ∧ (x1 e).toInt < 50000

/-- The stated precondition gives the range of the source indices on every device. -/
theorem src_in_range [Cert.Pre_finite_inputs.Facts] (m : (ℓ : Loc nD τ sig) → Buf (Elt Ideal) ℓ)
    (hpre : Cert.Pre_KernelIdeal m) (c : Dev nD) : SrcInRange (m ((c.tc : Thread nD τ).loc main_arg1)) := by
  intro e
  -- the printed predicate at its one index: a conjunction of twelve "all entries" tests
  have h := congrFun (hpre c) (fun d => d.elim0)
  dsimp only [Cert.Pre_finite_inputs.fn, Cert.Pre_finite_inputs.fn_part1, Cert.Pre_finite_inputs.fn_part2,
    Cert.Pre_finite_inputs.fn_part3] at h
  -- a conjunction word is 1 exactly when both conjuncts are: keep the last two
  obtain ⟨h12, hlt⟩ := IntOp.andi_eq_one.1 h
  obtain ⟨-, hge⟩ := IntOp.andi_eq_one.1 h12
  -- an "and" over all entries that is 1 had a 1 at entry e
  haveI : Subsingleton Cert.Pre_finite_inputs.S_.Idx := ⟨fun a b => funext fun d => d.elim0⟩
  have hge' := Host.reduce_andi_all _ _ _ _ _ hge e
  have hlt' := Host.reduce_andi_all _ _ _ _ _ hlt e
  -- a signed comparison word that is 1 orders its operands as integers; the broadcast scalar reads the literal
  have hge'' : (4294917296#32 : BitVec 32).toInt ≤ (m ((c.tc : Thread nD τ).loc main_arg1) e).toInt :=
    IntOp.cmpi_sge.1 hge'
  have hlt'' : (m ((c.tc : Thread nD τ).loc main_arg1) e).toInt < (50000#32 : BitVec 32).toInt :=
    IntOp.cmpi_slt.1 hlt'
  -- the two literals as signed integers: 2³² − 50000 reads −50000
  have hlo : (4294917296#32 : BitVec 32).toInt = -50000 := by decide
  have hhi : (50000#32 : BitVec 32).toInt = 50000 := by decide
  rw [hlo] at hge''
  rw [hhi] at hlt''
  exact ⟨hge'', hlt''⟩

end Cert.Mask

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.Layer0.lean ====
import proofs.«421492_j40956808135024_2_alg».proof.Proof.Gen.KernelIdeal.Frame
import proofs.«421492_j40956808135024_2_alg».proof.Proof.RefRead
import proofs.«421492_j40956808135024_2_alg».proof.Proof.LibDot
import Idealize.ShloMosaic.Lib.ValueIdx
import Idealize.ShloMosaic.Lib.Pipeline.Value
import Idealize.ShloMosaic.PureOps.Ideal.Laws

set_option maxRecDepth 16384

noncomputable section

namespace Cert.Layer0

open Idealize.ShloMosaic Idealize.ShloMosaic.TcCoe Idealize.SL.Sem
open Idealize.ShloMosaic.Pipeline (Dat Cfg Window)
open Cert.KernelIdeal Cert.KernelIdeal.Gen
open Idealize.ShloMosaic.ValueIdx
open scoped BigOperators

/-- The zero offsets of a whole-block access, as the constant function. -/
theorem zero_off : (![0, 0] : Fin 2 → Nat) = fun _ => 0 := funext fun a => by fin_cases a <;> rfl

/-- The body's payload at entry (p, q): at the ideal instance the two roundings to bf16 are the identity and the
    product into the zero accumulator is the sum over the 128 contraction indices of row p of the left block times
    column q of the right block. -/
theorem pay_apply (x0 : Vec Ideal S2000x128 .f32) (x1 : Vec Ideal S128x96 .f32) (p : Fin 2000) (q : Fin 96) :
    k0_pay1 (F := Ideal) x0 x1 (ix2 p q) = ∑ k : Fin 128, x0 (ix2 p k) * x1 (ix2 k q) := by
  unfold k0_pay1
  exact Cert.LibDot.matmul_zero_apply dot_S2000x128_S128x96_S2000x96_1_0_0_1_n_n rfl rfl rfl rfl rfl rfl none _ _ p q

/-- The payload of a point against the whole arrays: when the left block is rows 2000·n … 2000·n+1999 of the left
    array and the right block is the right array, entry (p, q) of the payload is entry (2000·n+p, q) of the matrix
    product of the arrays: both are the same sum over the contraction index, term by term. -/
theorem pay_block (A0 : (⟨Cert.ReferenceIdeal.S50000x128, .f32⟩ : BufTy).Contents (Elt Ideal))
    (A1 : (⟨Cert.ReferenceIdeal.S128x96, .f32⟩ : BufTy).Contents (Elt Ideal))
    (x0 : Vec Ideal S2000x128 .f32) (x1 : Vec Ideal S128x96 .f32) (n : Nat) (p : Fin 2000) (q : Fin 96)
    (hr : n * 2000 + p.val < 50000)
    (h0 : ∀ k : Fin 128, x0 (ix2 p k) = A0 (ix2 (⟨n * 2000 + p.val, hr⟩ : Fin 50000) k))
    (h1 : ∀ k : Fin 128, x1 (ix2 k q) = A1 (ix2 k q)) :
    k0_pay1 (F := Ideal) x0 x1 (ix2 p q)
      = Cert.ReferenceIdeal.ReadP.val_main_v0 (F := Ideal) A0 A1 (ix2 (⟨n * 2000 + p.val, hr⟩ : Fin 50000) q) := by
  rw [pay_apply, Cert.ReferenceIdeal.ReadP.val_main_v0_apply]
  refine Finset.sum_congr rfl fun k _ => ?_
  rw [h0 k, h1 k]
  congr 2
  · funext a
    match a with
    | ⟨0, _⟩ => rfl
    | ⟨1, _⟩ => rfl
  · funext a
    match a with
    | ⟨0, _⟩ => rfl
    | ⟨1, _⟩ => rfl

/-- The printed index maps, decided over the 25 points: the left window and the output window sit at block row t,
    block column 0; the right window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- WHAT POINT t WRITES BACK is block t of the product of the two input arrays. -/
theorem flushed_eq (c : Dev nD) (t : Fin cfg0.N) :
    (dat0 (F := Ideal) V c).flushed 2 t
      = ((cfg0.win 2).blk t).view.read (Elt Ideal)
          (Cert.ReferenceIdeal.ReadP.val_main_v0 (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero zero_off]
  simp only [View.ld_unit_zero (S := S2000x128) zero_off, View.ld_unit_zero (S := S128x96) zero_off]
  have ht : t.val < 25 := Nat.lt_of_lt_of_eq t.isLt (show cfg0.N = 25 from N_0)
  obtain ⟨e0, e1, e2, e3, e4, e5⟩ := idx_facts t
  refine funext fun (j : S2000x96.Idx) => ?_
  obtain ⟨p, q, rfl⟩ : ∃ (p : Fin 2000) (q : Fin 96), j = ix2 p q := ⟨j 0, j 1, eq_ix2 j⟩
  have hr : t.val * 2000 + p.val < 50000 := by have := p.isLt; omega
  have hemb : ((cfg0.win 2).blk t).view.emb (ix2 p q) = (ix2 (⟨t.val * 2000 + p.val, hr⟩ : Fin 50000) q : S50000x96.Idx) := by
    funext a; apply Fin.ext
    match a with
    | ⟨0, _⟩ => show win0_2.index t (0 : Fin 2) * 2000 + 1 * p.val = t.val * 2000 + p.val; omega
    | ⟨1, _⟩ => show win0_2.index t (1 : Fin 2) * 96 + 1 * q.val = q.val; omega
  show k0_pay1 (F := Ideal) (iblk0 V c 0 t) (iblk0 V c 1 t) (ix2 p q)
    = Cert.ReferenceIdeal.ReadP.val_main_v0 (F := Ideal) (V c (Pipeline.arrRef spec0 0)) (V c (Pipeline.arrRef spec0 1)) (((cfg0.win 2).blk t).view.emb (ix2 p q))
  rw [hemb]
  refine pay_block _ _ _ _ t.val p q hr (fun k => ?_) (fun k => ?_)
  · show V c (Pipeline.arrRef spec0 0) (((cfg0.win 0).blk t).view.emb (ix2 p k)) = _
    congr 1
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c (Pipeline.arrRef spec0 1) (((cfg0.win 1).blk t).view.emb (ix2 k q)) = _
    congr 1
    funext a; apply Fin.ext
    match a with
    | ⟨0, _⟩ => show win0_1.index t (0 : Fin 2) * 128 + 1 * k.val = k.val; omega
    | ⟨1, _⟩ => show win0_1.index t (1 : Fin 2) * 96 + 1 * q.val = q.val; omega

/-- An index of the output array is in point t's block iff each coordinate is in the block's range on its axis. -/
theorem mem_blk (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_call0_v0).slice (win0_2.rect t)).set ↔ _
  rw [View.set_slice_whole, Rect.mem_set_unit]
  exact Iff.rfl

/-- Every block row of the array is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- The 25 blocks tile the array: row r is in the block of point r / 2000. -/
theorem cover (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 96 ≤ (i 1).val ∧ (i 1).val < win0_2.index t (1 : Fin 2) * 96 + 96; omega

/-- Call 0 leaves in its output array the matrix product of its two input arrays as the call finds them: block t
    holds rows 2000·t … 2000·t+1999 of the product, and the 25 blocks tile the 50000 rows. -/
theorem arr_eq (c : Dev nD) :
    (dat0 (F := Ideal) V c).arrAt 2 cfg0.N
      = Cert.ReferenceIdeal.ReadP.val_main_v0 (F := Ideal) (V c (Pipeline.arrRef spec0 0)) (V c (Pipeline.arrRef spec0 1)) :=
  (dat0 (F := Ideal) V c).arrAt_eq_of_cover 2 _ (fun t _ => flushed_eq V c t) cover

end Cert.Layer0

end
-- ==== Proof.Layer1.lean ====
import proofs.«421492_j40956808135024_2_alg».proof.Proof.Gen.KernelIdeal.Frame
import proofs.«421492_j40956808135024_2_alg».proof.Proof.RefRead
import proofs.«421492_j40956808135024_2_alg».proof.Proof.LibDot
import Idealize.ShloMosaic.Lib.ValueIdx
import Idealize.ShloMosaic.Lib.Pipeline.Value
import Idealize.ShloMosaic.PureOps.Ideal.Laws

set_option maxRecDepth 16384

noncomputable section

namespace Cert.Layer1

open Idealize.ShloMosaic Idealize.ShloMosaic.TcCoe Idealize.SL.Sem
open Idealize.ShloMosaic.Pipeline (Dat Cfg Window)
open Cert.KernelIdeal Cert.KernelIdeal.Gen
open scoped BigOperators
variable (V : (c : Dev nD) → (b : Ref sig .tc) → Buf (Elt Ideal) ((c : Thread nD τ).loc b))

theorem zeros2 : (![0, 0] : Fin 2 → Nat) = fun _ => 0 := funext fun a => by fin_cases a <;> rfl

/-- Entry (r, q) of relu(A + b)·W, the bias held as a 1×96 row. -/
def entry (A : Vec Ideal S50000x96 .f32) (B : Vec Ideal S1x96 .f32) (W : Vec Ideal S96x96 .f32) (r : Fin 50000) (q : Fin 96) : Elt Ideal .f32 :=
  ∑ k : Fin 96, max (A (ValueIdx.ix2 r k) + B (ValueIdx.ix2 (0 : Fin 1) k)) (Ideal.ofBits .f32 0x00000000#32) * W (ValueIdx.ix2 k q)

/-- The whole array relu(A + b)·W. -/
def prod (A : Vec Ideal S50000x96 .f32) (B : Vec Ideal S1x96 .f32) (W : Vec Ideal S96x96 .f32) : Vec Ideal S50000x96 .f32 :=
  fun i => entry A B W (i 0) (i 1)

/-- The block's payload at (p, q): the row of relu(x0 + x1) against column q of x2. -/
theorem pay_apply (x0 : Vec Ideal S2000x96 .f32) (x1 : Vec Ideal S1x96 .f32) (x2 : Vec Ideal S96x96 .f32) (p : Fin 2000) (q : Fin 96) :
    k1_pay1 (F := Ideal) x0 x1 x2 (ValueIdx.ix2 p q)
      = ∑ k : Fin 96, max (x0 (ValueIdx.ix2 p k) + x1 (ValueIdx.ix2 (0 : Fin 1) k)) (Ideal.ofBits .f32 0x00000000#32) * x2 (ValueIdx.ix2 k q) := by
  unfold k1_pay1
  refine (Cert.LibDot.matmul_zero_apply dot_S2000x96_S96x96_S2000x96_1_0_0_1_n_n rfl rfl rfl rfl rfl rfl none _ _ p q).trans ?_
  refine Finset.sum_congr rfl fun k _ => ?_
  rw [ValueIdx.truncf_apply, ValueIdx.truncf_apply, ValueIdx.maximumf_apply, ValueIdx.addf_apply, shapeCast_self, shapeCast_self,
    ValueIdx.broadcast_apply]
  rw [broadcastTo_apply x1 broadcasts_S1x96_S2000x96 (ValueIdx.ix2 p k) (ValueIdx.ix2 (0 : Fin 1) k) (fun a => by
    match a with
    | ⟨0, _⟩ => rfl
    | ⟨1, _⟩ => rfl)]
  rfl

/-- The printed index maps, decided over the grid: the activation window and the output window sit at block row t, column
    block 0; the bias row and the weight are the one block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's activation block is row 2000·t + p of the array. -/
theorem blk0_apply (c : Dev nD) (t : Fin cfg1.N) (p : Fin 2000) (k : Fin 96) (i : S50000x96.Idx)
    (h0 : (i 0).val = 2000 * t.val + p.val) (h1 : (i 1).val = k.val) :
    (iblk1 V c 0 t : Vec Ideal S2000x96 .f32) (ValueIdx.ix2 p k) = (V c (Pipeline.arrRef spec1 0) : Vec Ideal S50000x96 .f32) i := by
  obtain ⟨e0, e1, -⟩ := idx_facts t
  show V c (Pipeline.arrRef spec1 0) (((cfg1.win 0).blk t).view.emb (ValueIdx.ix2 p k)) = V c (Pipeline.arrRef spec1 0) i
  refine congrArg _ (funext fun a => Fin.ext ?_)
  match a with
  | ⟨0, _⟩ => show win1_0.index t (0 : Fin 2) * 2000 + 1 * p.val = (i 0).val; omega
  | ⟨1, _⟩ => show win1_0.index t (1 : Fin 2) * 96 + 1 * k.val = (i 1).val; omega

/-- The bias window's block is the whole 1×96 row at every point. -/
theorem blk1_apply (c : Dev nD) (t : Fin cfg1.N) (k : Fin 96) :
    (iblk1 V c 1 t : Vec Ideal S1x96 .f32) (ValueIdx.ix2 (0 : Fin 1) k) = (V c (Pipeline.arrRef spec1 1) : Vec Ideal S1x96 .f32) (ValueIdx.ix2 (0 : Fin 1) k) := by
  obtain ⟨-, -, e0, e1, -⟩ := idx_facts t
  show V c (Pipeline.arrRef spec1 1) (((cfg1.win 1).blk t).view.emb (ValueIdx.ix2 (0 : Fin 1) k)) = V c (Pipeline.arrRef spec1 1) (ValueIdx.ix2 (0 : Fin 1) k)
  refine congrArg _ (funext fun a => Fin.ext ?_)
  match a with
  | ⟨0, _⟩ => show win1_1.index t (0 : Fin 2) * 1 + 1 * 0 = 0; omega
  | ⟨1, _⟩ => show win1_1.index t (1 : Fin 2) * 96 + 1 * k.val = k.val; omega

/-- The weight window's block is the whole 96×96 array at every point. -/
theorem blk2_apply (c : Dev nD) (t : Fin cfg1.N) (k q : Fin 96) :
    (iblk1 V c 2 t : Vec Ideal S96x96 .f32) (ValueIdx.ix2 k q) = (V c (Pipeline.arrRef spec1 2) : Vec Ideal S96x96 .f32) (ValueIdx.ix2 k q) := by
  obtain ⟨-, -, -, -, e0, e1, -⟩ := idx_facts t
  show V c (Pipeline.arrRef spec1 2) (((cfg1.win 2).blk t).view.emb (ValueIdx.ix2 k q)) = V c (Pipeline.arrRef spec1 2) (ValueIdx.ix2 k q)
  refine congrArg _ (funext fun a => Fin.ext ?_)
  match a with
  | ⟨0, _⟩ => show win1_2.index t (0 : Fin 2) * 96 + 1 * k.val = k.val; omega
  | ⟨1, _⟩ => show win1_2.index t (1 : Fin 2) * 96 + 1 * q.val = q.val; omega

/-- What point t writes back is block t of relu(A + b)·W of the three input arrays. -/
theorem flushed_eq (c : Dev nD) (t : Fin cfg1.N) :
    (dat1 (F := Ideal) V c).flushed 3 t
      = ((cfg1.win 3).blk t).view.read (Elt Ideal) (prod (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zeros2]
  simp only [View.ld_unit_zero (S := S2000x96) zeros2, View.ld_unit_zero (S := S1x96) zeros2, View.ld_unit_zero (S := S96x96) zeros2]
  obtain ⟨-, -, -, -, -, -, e0, e1⟩ := idx_facts t
  funext j
  obtain ⟨p, q, rfl⟩ : ∃ (p : Fin 2000) (q : Fin 96), j = ValueIdx.ix2 p q := ⟨j 0, j 1, ValueIdx.eq_ix2 j⟩
  show k1_pay1 (F := Ideal) (iblk1 V c 0 t) (iblk1 V c 1 t) (iblk1 V c 2 t) (ValueIdx.ix2 p q)
    = prod (V c (Pipeline.arrRef spec1 0)) (V c (Pipeline.arrRef spec1 1)) (V c (Pipeline.arrRef spec1 2)) (((cfg1.win 3).blk t).view.emb (ValueIdx.ix2 p q))
  refine (pay_apply _ _ _ p q).trans ?_
  unfold prod entry
  refine Finset.sum_congr rfl fun k _ => ?_
  have hr : ((((cfg1.win 3).blk t).view.emb (ValueIdx.ix2 p q) : S50000x96.Idx) 0).val = 2000 * t.val + p.val := by
    show win1_3.index t (0 : Fin 2) * 2000 + 1 * p.val = _; omega
  have hq : ((((cfg1.win 3).blk t).view.emb (ValueIdx.ix2 p q) : S50000x96.Idx) 1) = q := by
    apply Fin.ext; show win1_3.index t (1 : Fin 2) * 96 + 1 * q.val = _; omega
  rw [blk0_apply V c t p k (ValueIdx.ix2 (((cfg1.win 3).blk t).view.emb (ValueIdx.ix2 p q) 0) k) hr rfl, blk1_apply V c t k, blk2_apply V c t k q, hq]

/-- An index of the output array is in point t's block iff each coordinate is in the block's range on its axis. -/
theorem mem_blk (t : Fin cfg1.N) (i : S50000x96.Idx) :
    i ∈ ((cfg1.win 3).blk t).view.set ↔ ∀ a : Fin 2, win1_3.index t a * S2000x96.size a ≤ (i a).val ∧ (i a).val < win1_3.index t a * S2000x96.size a + S2000x96.size a := by
  show i ∈ ((View.whole main_call0_v9).slice (win1_3.rect t)).set ↔ _
  rw [View.set_slice_whole, Rect.mem_set_unit]
  exact Iff.rfl

/-- The 25 row blocks fill the array: row r is in the block of point r / 2000. -/
theorem cover (i : S50000x96.Idx) : ∃ t : Fin cfg1.N, (cfg1.win 3).flush t = true ∧ i ∈ ((cfg1.win 3).blk t).view.set := by
  have hi0 : (i 0).val < 50000 := (i 0).isLt
  have hi1 : (i 1).val < 96 := (i 1).isLt
  obtain ⟨t, ht⟩ : ∃ t : Fin cfg1.N, t.val = (i 0).val / 2000 :=
    ⟨⟨(i 0).val / 2000, by show _ < grid1.N; rw [N_1]; omega⟩, rfl⟩
  obtain ⟨-, -, -, -, -, -, e0, e1⟩ := idx_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 96 ≤ (i 1).val ∧ (i 1).val < win1_3.index t (1 : Fin 2) * 96 + 96; omega

/-- The output array after the 25 points is relu(A + b)·W of the three input arrays. -/
theorem final (c : Dev nD) :
    (dat1 (F := Ideal) V c).arrAt 3 cfg1.N = prod (V c (Pipeline.arrRef spec1 0)) (V c (Pipeline.arrRef spec1 1)) (V c (Pipeline.arrRef spec1 2)) :=
  (dat1 (F := Ideal) V c).arrAt_eq_of_cover 3 _ (fun t _ => flushed_eq V c t) cover

/-- The reference's product of relu(A + b) with W, entry by entry, is the same sum over the contraction index; its bias
    b, broadcast along the rows, is read at the column, as the kernel's 1×96 row is. -/
theorem ref_eq (A : Vec Ideal Cert.ReferenceIdeal.S50000x96 .f32) (b : Vec Ideal Cert.ReferenceIdeal.S96 .f32)
    (B : Vec Ideal S1x96 .f32) (W : Vec Ideal Cert.ReferenceIdeal.S96x96 .f32)
    (hb : ∀ j : Fin 96, B (ValueIdx.ix2 (0 : Fin 1) j) = b (ValueIdx.ix1 j)) :
    prod A B W
      = (Host.dotGeneral (F := Ideal) (φ₁ := .f32) (φ₂ := .f32) Cert.ReferenceIdeal.dot_S50000x96_S96x96_S50000x96_1_0_0_1_n_n none
          (maximumf (F := Ideal) (φ := .f32) (addf (F := Ideal) (φ := .f32) A (Cert.ReferenceIdeal.ReadP.val_main_v15 (F := Ideal) b)) (Cert.ReferenceIdeal.ReadP.val_main_call0_v0 (F := Ideal)))
          W : Vec Ideal Cert.ReferenceIdeal.S50000x96 .f32) := by
  funext i
  obtain ⟨r, q, rfl⟩ : ∃ (r : Fin 50000) (q : Fin 96), i = ValueIdx.ix2 r q := ⟨i 0, i 1, ValueIdx.eq_ix2 i⟩
  refine Eq.trans ?_ (Cert.LibDot.dotGeneral_apply Cert.ReferenceIdeal.dot_S50000x96_S96x96_S50000x96_1_0_0_1_n_n rfl rfl rfl rfl rfl rfl none _ _ r q).symm
  show entry A B W r q = _
  unfold entry
  refine Finset.sum_congr rfl fun k _ => ?_
  rw [ValueIdx.maximumf_apply, ValueIdx.addf_apply, Cert.ReferenceIdeal.ReadP.val_main_v15_apply, Cert.ReferenceIdeal.ReadP.val_main_v14_apply,
    Cert.ReferenceIdeal.ReadP.val_main_call0_v0_apply, Cert.ReferenceIdeal.ReadP.val_main_call0_cst_apply, hb k]
  have hk : Cert.ReferenceIdeal.ReadP.idx_main_v14 (Cert.ReferenceIdeal.ReadP.idx_main_v15 (ValueIdx.ix2 r k)) = ValueIdx.ix1 k :=
    funext fun a => match a with | ⟨0, _⟩ => rfl
  rw [hk]
  rfl
/-- Call 1 leaves the product of relu(A + b) with W, where A, b (as a 1×96 row) and W are what its three input
    arrays hold when it is entered. -/
theorem arr_eq (c : Dev nD) (A : ((⟨Cert.ReferenceIdeal.S50000x96, .f32⟩ : BufTy).Contents (Elt Ideal))) (b : ((⟨Cert.ReferenceIdeal.S96, .f32⟩ : BufTy).Contents (Elt Ideal)))
    (hA : V c (Pipeline.arrRef spec1 0) = A)
    (hb : ∀ j : Fin 96, V c (Pipeline.arrRef spec1 1) (ValueIdx.ix2 (0 : Fin 1) j) = b (ValueIdx.ix1 j)) :
    (dat1 (F := Ideal) V c).arrAt 3 cfg1.N
      = (Host.dotGeneral (F := Ideal) (φ₁ := .f32) (φ₂ := .f32) Cert.ReferenceIdeal.dot_S50000x96_S96x96_S50000x96_1_0_0_1_n_n none
          (maximumf (F := Ideal) (φ := .f32) (addf (F := Ideal) (φ := .f32) A (Cert.ReferenceIdeal.ReadP.val_main_v15 (F := Ideal) b)) (Cert.ReferenceIdeal.ReadP.val_main_call0_v0 (F := Ideal)))
          (V c (Pipeline.arrRef spec1 2) : ((⟨Cert.ReferenceIdeal.S96x96, .f32⟩ : BufTy).Contents (Elt Ideal))) : ((⟨Cert.ReferenceIdeal.S50000x96, .f32⟩ : BufTy).Contents (Elt Ideal))) := by
  rw [final V c, ← hA]
  exact ref_eq _ b _ _ hb

end Cert.Layer1

end
-- ==== Proof.Layer2.lean ====
import proofs.«421492_j40956808135024_2_alg».proof.Proof.Gen.KernelIdeal.Frame
import proofs.«421492_j40956808135024_2_alg».proof.Proof.RefRead
import Idealize.ShloMosaic.Lib.ValueIdx
import Idealize.ShloMosaic.Lib.Pipeline.Value
import Idealize.ShloMosaic.PureOps.Ideal.Laws

set_option maxRecDepth 16384

noncomputable section

namespace Cert.Layer2

open Idealize.ShloMosaic Idealize.ShloMosaic.TcCoe Idealize.SL.Sem
open Idealize.ShloMosaic.Pipeline (Dat Cfg Window)
open Cert.KernelIdeal Cert.KernelIdeal.Gen
variable (V : (c : Dev nD) → (b : Ref sig .tc) → Buf (Elt Ideal) ((c : Thread nD τ).loc b))

/-- A whole-buffer access starts at the origin. -/
theorem hz : (![0, 0] : Fin 2 → Nat) = fun _ => 0 := funext fun a => by fin_cases a <;> rfl

/-- The body's payload at row p, column q of the block: the larger of zero and the block's entry plus the bias row's
    entry of that column. -/
theorem pay_apply (x0 : Vec Ideal S2000x96 .f32) (x1 : Vec Ideal S1x96 .f32) (p : Fin 2000) (q : Fin 96) :
    k2_pay1 (F := Ideal) x0 x1 (ValueIdx.ix2 p q)
      = max (x0 (ValueIdx.ix2 p q) + x1 (ValueIdx.ix2 (0 : Fin 1) q)) (Ideal.ofBits .f32 0x00000000#32) := by
  unfold k2_pay1
  simp only [shapeCast_self]
  rw [ValueIdx.maximumf_apply, ValueIdx.addf_apply,
    broadcastTo_apply x1 broadcasts_S1x96_S2000x96 (ValueIdx.ix2 p q) (ValueIdx.ix2 (0 : Fin 1) q) (fun a => match a with
      | ⟨0, _⟩ => by show (0 : Nat) = if (1 : Nat) = 1 then 0 else p.val; rw [if_pos rfl]
      | ⟨1, _⟩ => by show q.val = if (96 : Nat) = 1 then 0 else q.val; rw [if_neg (by decide)])]
  rfl

/-- What the body leaves in the output buffer at row p, column q, for any input blocks. -/
theorem out_apply (x0 : Vec Ideal S2000x96 .f32) (x1 : Vec Ideal S1x96 .f32) (p : Fin 2000) (q : Fin 96) :
    out2_2 (F := Ideal) x0 x1 (ValueIdx.ix2 p q)
      = max (x0 (ValueIdx.ix2 p q) + x1 (ValueIdx.ix2 (0 : Fin 1) q)) (Ideal.ofBits .f32 0x00000000#32) := by
  unfold out2_2
  rw [View.canon_unit_zero hz]
  simp only [View.ld_unit_zero (S := S2000x96) hz, View.ld_unit_zero (S := S1x96) hz]
  exact pay_apply x0 x1 p q

/-- relu(A + b) on the whole array: the reference's stage. -/
abbrev reluAdd (A : ((⟨Cert.ReferenceIdeal.S50000x96, .f32⟩ : BufTy).Contents (Elt Ideal))) (b : ((⟨Cert.ReferenceIdeal.S96, .f32⟩ : BufTy).Contents (Elt Ideal))) :
    ((⟨Cert.ReferenceIdeal.S50000x96, .f32⟩ : BufTy).Contents (Elt Ideal)) :=
  maximumf (F := Ideal) (φ := .f32) (addf (F := Ideal) (φ := .f32) A (Cert.ReferenceIdeal.ReadP.val_main_v33 (F := Ideal) b)) (Cert.ReferenceIdeal.ReadP.val_main_call1_v0 (F := Ideal))

/-- relu(A + b) read at an index: the larger of zero and A's entry plus b's entry of that column. -/
theorem want_apply (A : ((⟨Cert.ReferenceIdeal.S50000x96, .f32⟩ : BufTy).Contents (Elt Ideal))) (b : ((⟨Cert.ReferenceIdeal.S96, .f32⟩ : BufTy).Contents (Elt Ideal)))
    (i : Cert.ReferenceIdeal.S50000x96.Idx) :
    reluAdd A b i = max (A i + b (ValueIdx.ix1 (⟨(i 1).val, (i 1).isLt⟩ : Fin 96))) (Ideal.ofBits .f32 0x00000000#32) := by
  unfold reluAdd
  rw [ValueIdx.maximumf_apply, ValueIdx.addf_apply, Cert.ReferenceIdeal.ReadP.val_main_v33_apply, Cert.ReferenceIdeal.ReadP.val_main_v32_apply,
    Cert.ReferenceIdeal.ReadP.val_main_call1_v0_apply, Cert.ReferenceIdeal.ReadP.val_main_call1_cst_apply]
  have e : Cert.ReferenceIdeal.ReadP.idx_main_v32 (Cert.ReferenceIdeal.ReadP.idx_main_v33 i) = ValueIdx.ix1 (⟨(i 1).val, (i 1).isLt⟩ : Fin 96) :=
    funext fun a => match a with | ⟨0, _⟩ => rfl
  rw [e]
  rfl

/-- The printed index maps over the grid: the row blocks of input and output move together, point t at block t; the
    bias row stays put. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of the input's block at point t is the array's entry under it. -/
theorem iblk0_apply (c : Dev nD) (A : ((⟨Cert.ReferenceIdeal.S50000x96, .f32⟩ : BufTy).Contents (Elt Ideal))) (hA : V c (Pipeline.arrRef spec2 0) = A)
    (t : Fin cfg2.N) (j : S2000x96.Idx) :
    iblk2 V c 0 t j = A (((cfg2.win 0).blk t).view.emb j) := by
  subst hA; rfl

/-- An entry of the bias row's block at point t is the row array's entry under it. -/
theorem iblk1_apply (c : Dev nD) (R : ((⟨S1x96, .f32⟩ : BufTy).Contents (Elt Ideal))) (hR : V c (Pipeline.arrRef spec2 1) = R)
    (t : Fin cfg2.N) (j : S1x96.Idx) :
    iblk2 V c 1 t j = R (((cfg2.win 1).blk t).view.emb j) := by
  subst hR; rfl

/-- What point t writes back is block t of relu(A + b). -/
theorem flushed_eq (c : Dev nD) (A : ((⟨Cert.ReferenceIdeal.S50000x96, .f32⟩ : BufTy).Contents (Elt Ideal))) (b : ((⟨Cert.ReferenceIdeal.S96, .f32⟩ : BufTy).Contents (Elt Ideal)))
    (hA : V c (Pipeline.arrRef spec2 0) = A)
    (hb : ∀ j : Fin 96, V c (Pipeline.arrRef spec2 1) (ValueIdx.ix2 (0 : Fin 1) j) = b (ValueIdx.ix1 j)) (t : Fin cfg2.N) :
    (dat2 (F := Ideal) V c).flushed 2 t = ((cfg2.win 2).blk t).view.read (Elt Ideal) (reluAdd A b) := by
  show (cfg2.win 2).cut (grid2.coords t) ((dat2 (F := Ideal) V c).after 2 t) = _
  rw [after2_2]
  funext j
  obtain ⟨p, q, rfl⟩ : ∃ (p : Fin 2000) (q : Fin 96), j = ValueIdx.ix2 p q := ⟨j 0, j 1, ValueIdx.eq_ix2 j⟩
  show out2_2 (F := Ideal) (iblk2 V c 0 t) (iblk2 V c 1 t) (ValueIdx.ix2 p q) = _
  rw [out_apply]
  obtain ⟨e00, e01, e10, e11, e20, e21⟩ := idx_facts t
  -- each block entry is the array's entry at block index × block size + the coordinate inside the block
  rw [iblk0_apply V c A hA, iblk1_apply V c _ rfl]
  show _ = reluAdd A b (((cfg2.win 2).blk t).view.emb (ValueIdx.ix2 p q))
  rw [want_apply]
  have h0 : ((cfg2.win 0).blk t).view.emb (ValueIdx.ix2 p q) = ((cfg2.win 2).blk t).view.emb (ValueIdx.ix2 p q) := by
    funext a; apply Fin.ext
    match a with
    | ⟨0, _⟩ => show win2_0.index t (0 : Fin 2) * 2000 + 1 * p.val = win2_2.index t (0 : Fin 2) * 2000 + 1 * p.val; rw [e00, e20]
    | ⟨1, _⟩ => show win2_0.index t (1 : Fin 2) * 96 + 1 * q.val = win2_2.index t (1 : Fin 2) * 96 + 1 * q.val; rw [e01, e21]
  have h1 : ((cfg2.win 1).blk t).view.emb (ValueIdx.ix2 (0 : Fin 1) q)
      = ValueIdx.ix2 (0 : Fin 1) (⟨((((cfg2.win 2).blk t).view.emb (ValueIdx.ix2 p q)) 1).val, ((((cfg2.win 2).blk t).view.emb (ValueIdx.ix2 p q)) 1).isLt⟩ : Fin 96) := by
    funext a; apply Fin.ext
    match a with
    | ⟨0, _⟩ => show win2_1.index t (0 : Fin 2) * 1 + 1 * 0 = 0; rw [e10]
    | ⟨1, _⟩ => show win2_1.index t (1 : Fin 2) * 96 + 1 * q.val = win2_2.index t (1 : Fin 2) * 96 + 1 * q.val; rw [e11, e21]
  rw [h0, h1, hb]

/-- An index of the array is in point t's block iff each coordinate is in the block's range on its axis. -/
theorem mem_blk (t : Fin cfg2.N) (i : S50000x96.Idx) :
    i ∈ ((cfg2.win 2).blk t).view.set ↔ ∀ a : Fin 2, win2_2.index t a * S2000x96.size a ≤ (i a).val ∧ (i a).val < win2_2.index t a * S2000x96.size a + S2000x96.size a := by
  show i ∈ ((View.whole main_call0_v18).slice (win2_2.rect t)).set ↔ _
  rw [View.set_slice_whole, Rect.mem_set_unit]
  exact Iff.rfl

/-- Row r lies in the block of point r / 2000: the 25 blocks of 2000 rows cover the 50000 rows. -/
theorem cover (i : S50000x96.Idx) : ∃ t : Fin cfg2.N, (cfg2.win 2).flush t = true ∧ i ∈ ((cfg2.win 2).blk t).view.set := by
  have hi0 : (i 0).val < 50000 := (i 0).isLt
  have hi1 : (i 1).val < 96 := (i 1).isLt
  have hN : cfg2.N = 25 := N_2
  have ht : (i 0).val / 2000 < cfg2.N := by omega
  obtain ⟨-, -, -, -, e0, e1⟩ := idx_facts ⟨(i 0).val / 2000, ht⟩
  refine ⟨⟨(i 0).val / 2000, ht⟩, flush2_2 _, ?_⟩
  rw [mem_blk]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_2.index ⟨(i 0).val / 2000, ht⟩ (1 : Fin 2) * 96 ≤ (i 1).val ∧ (i 1).val < win2_2.index ⟨(i 0).val / 2000, ht⟩ (1 : Fin 2) * 96 + 96
    rw [e1]; omega

/-- Call 2 leaves relu(A + b), entry by entry. -/
theorem arr_eq (c : Dev nD) (A : ((⟨Cert.ReferenceIdeal.S50000x96, .f32⟩ : BufTy).Contents (Elt Ideal))) (b : ((⟨Cert.ReferenceIdeal.S96, .f32⟩ : BufTy).Contents (Elt Ideal)))
    (hA : V c (Pipeline.arrRef spec2 0) = A)
    (hb : ∀ j : Fin 96, V c (Pipeline.arrRef spec2 1) (ValueIdx.ix2 (0 : Fin 1) j) = b (ValueIdx.ix1 j)) :
    (dat2 (F := Ideal) V c).arrAt 2 cfg2.N
      = (maximumf (F := Ideal) (φ := .f32) (addf (F := Ideal) (φ := .f32) A (Cert.ReferenceIdeal.ReadP.val_main_v33 (F := Ideal) b)) (Cert.ReferenceIdeal.ReadP.val_main_call1_v0 (F := Ideal)) : ((⟨Cert.ReferenceIdeal.S50000x96, .f32⟩ : BufTy).Contents (Elt Ideal))) := by
  exact (dat2 (F := Ideal) V c).arrAt_eq_of_cover 2 (reluAdd A b) (fun t _ => flushed_eq V c A b hA hb t) cover

end Cert.Layer2

end
-- ==== Proof.Layer3.lean ====
import proofs.«421492_j40956808135024_2_alg».proof.Proof.Gen.KernelIdeal.Frame
import proofs.«421492_j40956808135024_2_alg».proof.Proof.RefRead
import proofs.«421492_j40956808135024_2_alg».proof.Proof.LibDot
import Idealize.ShloMosaic.Lib.ValueIdx
import Idealize.ShloMosaic.Lib.Pipeline.Value
import Idealize.ShloMosaic.PureOps.Ideal.Laws

set_option maxRecDepth 16384

noncomputable section

namespace Cert.Layer3

open Idealize.ShloMosaic Idealize.ShloMosaic.TcCoe Idealize.SL.Sem
open Idealize.ShloMosaic.Pipeline (Dat Cfg Window)
open Cert.KernelIdeal Cert.KernelIdeal.Gen
open Idealize.ShloMosaic.ValueIdx
open scoped BigOperators

/-- The zero offsets of a whole-block access, as the constant function. -/
theorem zero_off : (![0, 0] : Fin 2 → Nat) = fun _ => 0 := funext fun a => by fin_cases a <;> rfl

/-- The body's payload at entry (p, q): the cast of the left block to its own shape is the identity, at the ideal
    instance the two roundings to bf16 are the identity, and the product into the zero accumulator is the sum over the
    96 contraction indices of row p of the left block times column q of the right block. -/
theorem pay_apply (x0 : Vec Ideal S2000x96 .f32) (x1 : Vec Ideal S96x40 .f32) (p : Fin 2000) (q : Fin 40) :
    k3_pay1 (F := Ideal) x0 x1 (ix2 p q) = ∑ k : Fin 96, x0 (ix2 p k) * x1 (ix2 k q) := by
  unfold k3_pay1
  rw [shapeCast_self]
  exact Cert.LibDot.matmul_zero_apply dot_S2000x96_S96x40_S2000x40_1_0_0_1_n_n rfl rfl rfl rfl rfl rfl none _ _ p q

/-- The payload of a point against the whole arrays: when the left block is rows 2000·n … 2000·n+1999 of the left
    array and the right block is the right array, entry (p, q) of the payload is entry (2000·n+p, q) of the matrix
    product of the arrays: both are the same sum over the contraction index, term by term. -/
theorem pay_block (A0 : (⟨Cert.ReferenceIdeal.S50000x96, .f32⟩ : BufTy).Contents (Elt Ideal))
    (A1 : (⟨Cert.ReferenceIdeal.S96x40, .f32⟩ : BufTy).Contents (Elt Ideal))
    (x0 : Vec Ideal S2000x96 .f32) (x1 : Vec Ideal S96x40 .f32) (n : Nat) (p : Fin 2000) (q : Fin 40)
    (hr : n * 2000 + p.val < 50000)
    (h0 : ∀ k : Fin 96, x0 (ix2 p k) = A0 (ix2 (⟨n * 2000 + p.val, hr⟩ : Fin 50000) k))
    (h1 : ∀ k : Fin 96, x1 (ix2 k q) = A1 (ix2 k q)) :
    k3_pay1 (F := Ideal) x0 x1 (ix2 p q)
      = (Host.dotGeneral (F := Ideal) (φ₁ := .f32) (φ₂ := .f32) Cert.ReferenceIdeal.dot_S50000x96_S96x40_S50000x40_1_0_0_1_n_n none A0 A1
          : ((⟨Cert.ReferenceIdeal.S50000x40, .f32⟩ : BufTy).Contents (Elt Ideal))) (ix2 (⟨n * 2000 + p.val, hr⟩ : Fin 50000) q) := by
  rw [pay_apply]
  refine Eq.trans ?_ (Cert.LibDot.dotGeneral_apply Cert.ReferenceIdeal.dot_S50000x96_S96x40_S50000x40_1_0_0_1_n_n rfl rfl rfl rfl rfl rfl none A0 A1 _ q).symm
  refine Finset.sum_congr rfl fun k _ => ?_
  rw [h0 k, h1 k]

/-- The printed index maps, decided over the 25 points: the left window and the output window sit at block row t,
    block column 0; the right window stays at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- WHAT POINT t WRITES BACK is block t of the product of the two input arrays. -/
theorem flushed_eq (c : Dev nD) (t : Fin cfg3.N) :
    (dat3 (F := Ideal) V c).flushed 2 t
      = ((cfg3.win 2).blk t).view.read (Elt Ideal)
          (Host.dotGeneral (F := Ideal) (φ₁ := .f32) (φ₂ := .f32) Cert.ReferenceIdeal.dot_S50000x96_S96x40_S50000x40_1_0_0_1_n_n none
            (V c (Pipeline.arrRef spec3 0) : ((⟨Cert.ReferenceIdeal.S50000x96, .f32⟩ : BufTy).Contents (Elt Ideal))) (V c (Pipeline.arrRef spec3 1) : ((⟨Cert.ReferenceIdeal.S96x40, .f32⟩ : BufTy).Contents (Elt Ideal))) : ((⟨Cert.ReferenceIdeal.S50000x40, .f32⟩ : BufTy).Contents (Elt Ideal))) := by
  show (cfg3.win 2).cut (grid3.coords t) ((dat3 V c).after 2 t) = _
  rw [after3_2]
  unfold out3_2
  rw [View.canon_unit_zero zero_off]
  simp only [View.ld_unit_zero (S := S2000x96) zero_off, View.ld_unit_zero (S := S96x40) zero_off]
  have ht : t.val < 25 := Nat.lt_of_lt_of_eq t.isLt (show cfg3.N = 25 from N_3)
  obtain ⟨e0, e1, e2, e3, e4, e5⟩ := idx_facts t
  refine funext fun (j : S2000x40.Idx) => ?_
  obtain ⟨p, q, rfl⟩ : ∃ (p : Fin 2000) (q : Fin 40), j = ix2 p q := ⟨j 0, j 1, eq_ix2 j⟩
  have hr : t.val * 2000 + p.val < 50000 := by have := p.isLt; omega
  have hemb : ((cfg3.win 2).blk t).view.emb (ix2 p q) = (ix2 (⟨t.val * 2000 + p.val, hr⟩ : Fin 50000) q : S50000x40.Idx) := by
    funext a; apply Fin.ext
    match a with
    | ⟨0, _⟩ => show win3_2.index t (0 : Fin 2) * 2000 + 1 * p.val = t.val * 2000 + p.val; omega
    | ⟨1, _⟩ => show win3_2.index t (1 : Fin 2) * 40 + 1 * q.val = q.val; omega
  show k3_pay1 (F := Ideal) (iblk3 V c 0 t) (iblk3 V c 1 t) (ix2 p q)
    = (Host.dotGeneral (F := Ideal) (φ₁ := .f32) (φ₂ := .f32) Cert.ReferenceIdeal.dot_S50000x96_S96x40_S50000x40_1_0_0_1_n_n none
        (V c (Pipeline.arrRef spec3 0) : ((⟨Cert.ReferenceIdeal.S50000x96, .f32⟩ : BufTy).Contents (Elt Ideal))) (V c (Pipeline.arrRef spec3 1) : ((⟨Cert.ReferenceIdeal.S96x40, .f32⟩ : BufTy).Contents (Elt Ideal))) : ((⟨Cert.ReferenceIdeal.S50000x40, .f32⟩ : BufTy).Contents (Elt Ideal))) (((cfg3.win 2).blk t).view.emb (ix2 p q))
  rw [hemb]
  refine pay_block _ _ _ _ t.val p q hr (fun k => ?_) (fun k => ?_)
  · show V c (Pipeline.arrRef spec3 0) (((cfg3.win 0).blk t).view.emb (ix2 p k)) = _
    congr 1
    funext a; apply Fin.ext
    match a with
    | ⟨0, _⟩ => show win3_0.index t (0 : Fin 2) * 2000 + 1 * p.val = t.val * 2000 + p.val; omega
    | ⟨1, _⟩ => show win3_0.index t (1 : Fin 2) * 96 + 1 * k.val = k.val; omega
  · show V c (Pipeline.arrRef spec3 1) (((cfg3.win 1).blk t).view.emb (ix2 k q)) = _
    congr 1
    funext a; apply Fin.ext
    match a with
    | ⟨0, _⟩ => show win3_1.index t (0 : Fin 2) * 96 + 1 * k.val = k.val; omega
    | ⟨1, _⟩ => show win3_1.index t (1 : Fin 2) * 40 + 1 * q.val = q.val; omega

/-- An index of the output array is in point t's block iff each coordinate is in the block's range on its axis. -/
theorem mem_blk (t : Fin cfg3.N) (i : S50000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_call0_v45).slice (win3_2.rect t)).set ↔ _
  rw [View.set_slice_whole, Rect.mem_set_unit]
  exact Iff.rfl

/-- Every block row of the array is some point's. -/
theorem idx_onto : ∀ q0 : Fin 25, ∃ t : Fin cfg3.N, win3_2.index t = ![q0.val, 0] :=
  (by decide +kernel : ∀ q0 : Fin 25, ∃ t : Fin grid3.N, win3_2.index t = ![q0.val, 0])

/-- The 25 blocks tile the array: row r is in the block of point r / 2000. -/
theorem cover (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 40 ≤ (i 1).val ∧ (i 1).val < win3_2.index t (1 : Fin 2) * 40 + 40; omega

/-- Call 3 leaves in its output array the matrix product (96 → 40 columns) of its two input arrays. -/
theorem arr_eq (c : Dev nD) :
    (dat3 (F := Ideal) V c).arrAt 2 cfg3.N
      = (Host.dotGeneral (F := Ideal) (φ₁ := .f32) (φ₂ := .f32) Cert.ReferenceIdeal.dot_S50000x96_S96x40_S50000x40_1_0_0_1_n_n none
          (V c (Pipeline.arrRef spec3 0) : ((⟨Cert.ReferenceIdeal.S50000x96, .f32⟩ : BufTy).Contents (Elt Ideal))) (V c (Pipeline.arrRef spec3 1) : ((⟨Cert.ReferenceIdeal.S96x40, .f32⟩ : BufTy).Contents (Elt Ideal))) : ((⟨Cert.ReferenceIdeal.S50000x40, .f32⟩ : BufTy).Contents (Elt Ideal))) :=
  (dat3 (F := Ideal) V c).arrAt_eq_of_cover 2 _ (fun t _ => flushed_eq V c t) cover

end Cert.Layer3

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.Layer4.lean ====
/-
  Call 4 (bias + row-wise log-softmax over 40 columns), as one whole-array function.

  Both programs compute, in every row, x − M − log Σⱼ exp (xⱼ − M) with M the largest of the row's 40 entries,
  folded from −∞. The maximum is carried as that fold and never evaluated: the kernel's lane maximum and the
  reference's reduce with a maximum body are both the fold of max over the row's entries; the lane sum and the
  reference's reduce-add are both the sum over them. Each grid point writes the 2000 rows of its block, and the 25
  blocks cover the 50000 rows.
-/
import proofs.«421492_j40956808135024_2_alg».proof.Proof.Gen.KernelIdeal.Frame
import proofs.«421492_j40956808135024_2_alg».proof.Proof.RefRead
import proofs.«421492_j40956808135024_2_alg».proof.Proof.RefLsm
import proofs.«421492_j40956808135024_2_alg».proof.Proof.LibKeepdims
import Idealize.ShloMosaic.Lib.ValueIdx
import Idealize.ShloMosaic.Lib.Pipeline.Value
import Idealize.ShloMosaic.PureOps.Ideal.Laws

set_option maxRecDepth 16384

noncomputable section

namespace Cert.Layer4

open Idealize.ShloMosaic Idealize.ShloMosaic.TcCoe Idealize.SL.Sem
open Idealize.ShloMosaic.Pipeline (Dat Cfg Window)
open Cert.KernelIdeal Cert.KernelIdeal.Gen

/-- The largest of a row's 40 entries, folded from −∞. -/
def rowTop (x : Fin 40 → EReal) : EReal :=
  (Finset.univ : Finset (Fin 40)).fold max (Ideal.ofBits .f32 0xFF800000#32) x

/-- The log-softmax of one row of 40 entries, at column `q`: x − top − log Σ exp (x − top). -/
def rowLsm (x : Fin 40 → EReal) (q : Fin 40) : EReal :=
  x q - rowTop x - Ideal.log (∑ k : Fin 40, Ideal.exp (x k - rowTop x))

/-- A lane maximum over the columns of a 2000×40 block, in row `p`, is that row's largest entry. -/
theorem laneMax_apply (v : FVec Ideal S2000x40 .f32) (h : S2000x40.Reduces [1] S2000) (hφ : FKind.Formats .f32)
    (hacc : (0xFF800000#32 : BitVec 32) = FKind.maximumf.neutral .f32 hφ) (p : Fin 2000) :
    multiReduction .maximumf [1] S2000 v 0xFF800000#32 h hφ hacc (ValueIdx.ix1 p) = rowTop fun k => v (ValueIdx.ix2 p k) := by
  rw [Ideal.multiReduction_maximumf_single]
  unfold rowTop
  have hf : (v ∘ h.lift (ValueIdx.ix1 p)) = fun k : Fin 40 => v (ValueIdx.ix2 p k) :=
    funext fun k => congrArg v (funext fun c => Fin.ext (by fin_cases c <;> rfl))
  exact congrArg (fun f => Finset.fold max (Ideal.ofBits .f32 0xFF800000#32) f (Finset.univ : Finset (Fin 40))) hf

/-- The block's row maximum kept as a column and spread back over the 40 columns. -/
theorem spreadMax_apply (v : FVec Ideal S2000x40 .f32) (h : S2000x40.Reduces [1] S2000) (hφ : FKind.Formats .f32)
    (hacc : (0xFF800000#32 : BitVec 32) = FKind.maximumf.neutral .f32 hφ)
    (hc : S2000.ShapeCasts S2000x1) (hb : S2000x1.Broadcasts S2000x40) (p : Fin 2000) (q : Fin 40) :
    broadcastTo S2000x40 (shapeCast S2000x1 (multiReduction .maximumf [1] S2000 v 0xFF800000#32 h hφ hacc) hc) hb (ValueIdx.ix2 p q)
      = rowTop fun k => v (ValueIdx.ix2 p k) :=
  (ValueIdx.broadcastTo_a1_ab_apply _ hb p q).trans ((ValueIdx.shapeCast_a_a1_apply _ hc p 0).trans (laneMax_apply v h hφ hacc p))

/-- The body's tree from the biased block on: subtract the spread row maximum, exponentiate, sum the lanes, take the
    logarithm, spread it back and subtract. At (p, q) it is the log-softmax of row p at column q. -/
theorem tree_apply (v : FVec Ideal S2000x40 .f32) (h : S2000x40.Reduces [1] S2000) (hφ : FKind.Formats .f32)
    (hacc : (0xFF800000#32 : BitVec 32) = FKind.maximumf.neutral .f32 hφ)
    (hacc0 : (0x00000000#32 : BitVec 32) = FKind.add.neutral .f32 hφ)
    (hc : S2000.ShapeCasts S2000x1) (hb : S2000x1.Broadcasts S2000x40) (p : Fin 2000) (q : Fin 40) :
    subf (subf v (broadcastTo S2000x40 (shapeCast S2000x1 (multiReduction .maximumf [1] S2000 v 0xFF800000#32 h hφ hacc) hc) hb))
      (broadcastTo S2000x40 (log (shapeCast S2000x1 (multiReduction .add [1] S2000
        (exp (subf v (broadcastTo S2000x40 (shapeCast S2000x1 (multiReduction .maximumf [1] S2000 v 0xFF800000#32 h hφ hacc) hc) hb)))
        0x00000000#32 h hφ hacc0) hc)) hb) (ValueIdx.ix2 p q)
      = rowLsm (fun k => v (ValueIdx.ix2 p k)) q := by
  rw [ValueIdx.subf_apply, ValueIdx.subf_apply, spreadMax_apply, ValueIdx.broadcastTo_a1_ab_apply]
  show _ - _ - Ideal.log (shapeCast S2000x1 _ hc (ValueIdx.ix2 p (0 : Fin 1))) = _
  rw [ValueIdx.shapeCast_a_a1_apply, ValueIdx.multiReduction_add_cols_apply]
  unfold rowLsm
  refine congrArg (fun s => _ - _ - Ideal.log s) (Finset.sum_congr rfl fun k _ => ?_)
  show Ideal.exp (subf v _ (ValueIdx.ix2 p k)) = _
  rw [ValueIdx.subf_apply, spreadMax_apply]

/-- The body's payload at (p, q): the log-softmax of row p of the block plus the bias row. -/
theorem pay_apply (x0 : Vec Ideal S2000x40 .f32) (x1 : Vec Ideal S1x40 .f32) (p : Fin 2000) (q : Fin 40) :
    k4_pay1 x0 x1 (ValueIdx.ix2 p q) = rowLsm (fun k => x0 (ValueIdx.ix2 p k) + x1 (ValueIdx.ix2 (0 : Fin 1) k)) q := by
  unfold k4_pay1
  refine (tree_apply _ _ _ _ _ _ _ p q).trans ?_
  refine congrArg (fun f => rowLsm f q) (funext fun k => ?_)
  rw [ValueIdx.addf_apply, shapeCast_self, shapeCast_self]
  refine congrArg (x0 (ValueIdx.ix2 p k) + ·) ?_
  refine broadcastTo_apply x1 _ (ValueIdx.ix2 p k) (ValueIdx.ix2 (0 : Fin 1) k) fun ax => ?_
  match ax with
  | ⟨0, _⟩ => rfl
  | ⟨1, _⟩ => rfl

/-- −∞ is the least extended real: a maximum against it is the other operand. -/
theorem max_negInf (y : EReal) : max (Ideal.ofBits .f32 0xFF800000#32) y = y := by
  simp [Ideal.ofBits, Ideal.ieee]

/-- The host's maximum over the columns of a 50000×40 array from −∞, in row `r`, is that row's largest entry. -/
theorem hostMax_apply (X : FVec Ideal Cert.ReferenceIdeal.S50000x40 .f32) (init : Cert.ReferenceIdeal.S_.Idx → EReal)
    (h' : Cert.ReferenceIdeal.S50000x40.ReducesTo [1] Cert.ReferenceIdeal.S50000) (hu : 0 < Cert.ReferenceIdeal.S_.numel)
    (hinit : init (Shape.Idx.first hu) = Ideal.ofBits .f32 0xFF800000#32) (r : Fin 50000) :
    Host.reduce FloatOps.maximumf X init h' hu (ValueIdx.ix1 r) = rowTop fun k => X (ValueIdx.ix2 r k) := by
  have h : Cert.ReferenceIdeal.S50000x40.Reduces [1] Cert.ReferenceIdeal.S50000 := by decide
  rw [Host.reduce_eq_fold_single FloatOps.maximumf X _ h' h hu, hinit]
  unfold rowTop
  have hf : (X ∘ h.lift (ValueIdx.ix1 r)) = fun k : Fin 40 => X (ValueIdx.ix2 r k) :=
    funext fun k => congrArg X (funext fun c => Fin.ext (by fin_cases c <;> rfl))
  exact congrArg (fun f => Finset.fold max (Ideal.ofBits .f32 0xFF800000#32) f (Finset.univ : Finset (Fin 40))) hf

/-- The host's sum over the columns of a 50000×40 array from 0, in row `r`, is that row's sum. -/
theorem hostSum_apply (Y : FVec Ideal Cert.ReferenceIdeal.S50000x40 .f32) (init : Cert.ReferenceIdeal.S_.Idx → EReal)
    (h' : Cert.ReferenceIdeal.S50000x40.ReducesTo [1] Cert.ReferenceIdeal.S50000) (hu : 0 < Cert.ReferenceIdeal.S_.numel)
    (hinit : init (Shape.Idx.first hu) = 0) (r : Fin 50000) :
    Host.reduceAdd Y init h' hu (ValueIdx.ix1 r) = ∑ k : Fin 40, Y (ValueIdx.ix2 r k) := by
  simp only [Host.reduceAdd, Ideal.hostReduceAdd_def]
  rw [Ideal.hostReduceAdd_single h' (by decide), hinit, zero_add]
  exact Finset.sum_congr rfl fun k _ => congrArg Y (funext fun c => Fin.ext (by fin_cases c <;> rfl))

/-- A column of 50000 entries spread over 40 columns reads, at (r, q), the column's entry in row r. -/
theorem hostSpread_apply (v : FVec Ideal Cert.ReferenceIdeal.S50000x1 .f32)
    (h2 : Cert.ReferenceIdeal.S50000x1.BroadcastsInDim Cert.ReferenceIdeal.S50000x40 ![0, 1]) (r : Fin 50000) (q : Fin 40) :
    broadcastInDim Cert.ReferenceIdeal.S50000x40 ![0, 1] h2 v (ValueIdx.ix2 r q) = v (ValueIdx.ix2 r (0 : Fin 1)) := by
  refine broadcastInDim_apply _ h2 _ (ValueIdx.ix2 r q) (ValueIdx.ix2 r (0 : Fin 1)) fun a => ?_
  match a with
  | ⟨0, _⟩ => rfl
  | ⟨1, _⟩ => rfl

/-- A vector of 50000 entries made a column reads, at (r, 0), entry r. -/
theorem hostColumn_apply (y : FVec Ideal Cert.ReferenceIdeal.S50000 .f32)
    (h1 : Cert.ReferenceIdeal.S50000.BroadcastsInDim Cert.ReferenceIdeal.S50000x1 ![0]) (r : Fin 50000) (u : Fin 1) :
    broadcastInDim Cert.ReferenceIdeal.S50000x1 ![0] h1 y (ValueIdx.ix2 r u) = y (ValueIdx.ix1 r) := by
  refine broadcastInDim_apply _ h1 _ (ValueIdx.ix2 r u) (ValueIdx.ix1 r) fun a => ?_
  match a with
  | ⟨0, _⟩ => rfl

/-- The host's logarithm and exponential act entry by entry. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- The reference's row maximum at (r, q) is row r's largest entry. -/
theorem refRowMax_apply (X : (⟨Cert.ReferenceIdeal.S50000x40, .f32⟩ : BufTy).Contents (Elt Ideal)) (r : Fin 50000) (q : Fin 40) :
    Cert.ReferenceIdeal.Stages.rowMax (F := Ideal) X (ValueIdx.ix2 r q) = rowTop fun k => X (ValueIdx.ix2 r k) := by
  unfold Cert.ReferenceIdeal.Stages.rowMax
  rw [hostSpread_apply, hostColumn_apply, ValueIdx.maximumf_apply, hostMax_apply X _ _ _ rfl r, Cert.ReferenceIdeal.ReadP.val_main_call2_v1_apply]
  exact max_negInf _

/-- The reference's log-softmax at (r, q) is the log-softmax of row r at column q. -/
theorem refLsm_apply (X : (⟨Cert.ReferenceIdeal.S50000x40, .f32⟩ : BufTy).Contents (Elt Ideal)) (r : Fin 50000) (q : Fin 40) :
    Cert.ReferenceIdeal.Stages.logSoftmax (F := Ideal) X (ValueIdx.ix2 r q) = rowLsm (fun k => X (ValueIdx.ix2 r k)) q := by
  unfold Cert.ReferenceIdeal.Stages.logSoftmax
  rw [ValueIdx.subf_apply, ValueIdx.subf_apply, refRowMax_apply, hostSpread_apply]
  rw [hostLog_apply, hostColumn_apply, hostSum_apply _ _ _ _ (by rw [Cert.ReferenceIdeal.ReadP.val_main_call2_cst_1_apply]; exact Ideal.ofBits_zero_f32) r]
  unfold rowLsm
  refine congrArg (fun s => _ - _ - Ideal.log s) (Finset.sum_congr rfl fun k _ => ?_)
  rw [hostExp_apply, ValueIdx.subf_apply, refRowMax_apply]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the row blocks move with the point, the bias block stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The reference's bias array reads b at the column. -/
theorem bias_apply (b : (⟨Cert.ReferenceIdeal.S40, .f32⟩ : BufTy).Contents (Elt Ideal)) (r : Fin 50000) (k : Fin 40) :
    Cert.ReferenceIdeal.ReadP.val_main_v77 (F := Ideal) b (ValueIdx.ix2 r k) = b (ValueIdx.ix1 k) := by
  rw [Cert.ReferenceIdeal.ReadP.val_main_v77_apply, Cert.ReferenceIdeal.ReadP.val_main_v76_apply]
  exact congrArg b (funext fun a => Fin.ext (by fin_cases a; rfl))

/-- One point's payload against the whole-array function: when the row block holds rows 2000·t … of A and the bias
    block holds b, the payload at (p, q) is the reference's log-softmax of A + b at (2000·t + p, q). -/
theorem point_eq (A : (⟨Cert.ReferenceIdeal.S50000x40, .f32⟩ : BufTy).Contents (Elt Ideal))
    (b : (⟨Cert.ReferenceIdeal.S40, .f32⟩ : BufTy).Contents (Elt Ideal)) (t : Fin 25)
    (x0 : Vec Ideal S2000x40 .f32) (x1 : Vec Ideal S1x40 .f32) (p : Fin 2000) (q : Fin 40) (r : Fin 50000)
    (h0 : ∀ k : Fin 40, x0 (ValueIdx.ix2 p k) = A (ValueIdx.ix2 r k))
    (h1 : ∀ k : Fin 40, x1 (ValueIdx.ix2 (0 : Fin 1) k) = b (ValueIdx.ix1 k)) :
    k4_pay1 x0 x1 (ValueIdx.ix2 p q)
      = Cert.ReferenceIdeal.Stages.logSoftmax (F := Ideal) (addf (F := Ideal) (φ := .f32) A (Cert.ReferenceIdeal.ReadP.val_main_v77 (F := Ideal) b)) (ValueIdx.ix2 r q) := by
  rw [pay_apply, refLsm_apply]
  refine congrArg (fun f => rowLsm f q) (funext fun k => ?_)
  rw [ValueIdx.addf_apply, bias_apply, h0, h1]

theorem flushed_eq (c : Dev nD) (A : ((⟨Cert.ReferenceIdeal.S50000x40, .f32⟩ : BufTy).Contents (Elt Ideal))) (b : ((⟨Cert.ReferenceIdeal.S40, .f32⟩ : BufTy).Contents (Elt Ideal)))
    (hA : V c (Pipeline.arrRef spec4 0) = A)
    (hb : ∀ j : Fin 40, V c (Pipeline.arrRef spec4 1) (ValueIdx.ix2 (0 : Fin 1) j) = b (ValueIdx.ix1 j)) (t : Fin cfg4.N) :
    (dat4 (F := Ideal) V c).flushed 2 t = ((cfg4.win 2).blk t).view.read (Elt Ideal)
      (Cert.ReferenceIdeal.Stages.logSoftmax (F := Ideal) (addf (F := Ideal) (φ := .f32) A (Cert.ReferenceIdeal.ReadP.val_main_v77 (F := Ideal) b))) := by
  show (cfg4.win 2).cut (grid4.coords t) ((dat4 (F := Ideal) V c).after 2 t) = _
  rw [after4_2]
  unfold out4_2
  rw [View.canon_unit_zero hz]
  simp only [View.ld_unit_zero (S := S2000x40) hz, View.ld_unit_zero (S := S1x40) hz]
  obtain ⟨e0, e1, e2, e3, e4, e5⟩ := idx_facts t
  have ht : t.val < 25 := t.isLt
  funext j
  obtain ⟨p, q, rfl⟩ : ∃ (p : Fin 2000) (q : Fin 40), j = ValueIdx.ix2 p q := ⟨j 0, j 1, ValueIdx.eq_ix2 j⟩
  have hp : p.val < 2000 := p.isLt
  show k4_pay1 (iblk4 V c 0 t) (iblk4 V c 1 t) ((win4 2).xinj (grid4.coords t) (ValueIdx.ix2 p q)) = Cert.ReferenceIdeal.Stages.logSoftmax (F := Ideal) (addf (F := Ideal) (φ := .f32) A (Cert.ReferenceIdeal.ReadP.val_main_v77 (F := Ideal) b)) (((cfg4.win 2).blk t).view.emb (ValueIdx.ix2 p q))
  have hx : (win4 2).xinj (grid4.coords t) (ValueIdx.ix2 p q) = ValueIdx.ix2 p q := funext fun a => Fin.ext rfl
  have hr : ((cfg4.win 2).blk t).view.emb (ValueIdx.ix2 p q) = ValueIdx.ix2 (⟨2000 * t.val + p.val, by omega⟩ : Fin 50000) q := by
    funext a; apply Fin.ext
    match a with
    | ⟨0, _⟩ => show win4_2.index t (0 : Fin 2) * 2000 + 1 * p.val = 2000 * t.val + p.val; omega
    | ⟨1, _⟩ => show win4_2.index t (1 : Fin 2) * 40 + 1 * q.val = q.val; omega
  rw [hx, hr]
  refine point_eq A b t _ _ p q _ (fun k => ?_) (fun k => ?_)
  · show V c (Pipeline.arrRef spec4 0) (((cfg4.win 0).blk t).view.emb (ValueIdx.ix2 p k)) = _
    rw [hA]
    refine congrArg A (funext fun a => Fin.ext ?_)
    match a with
    | ⟨0, _⟩ => show win4_0.index t (0 : Fin 2) * 2000 + 1 * p.val = 2000 * t.val + p.val; omega
    | ⟨1, _⟩ => show win4_0.index t (1 : Fin 2) * 40 + 1 * k.val = k.val; omega
  · show V c (Pipeline.arrRef spec4 1) (((cfg4.win 1).blk t).view.emb (ValueIdx.ix2 (0 : Fin 1) k)) = _
    rw [← hb k]
    refine congrArg (V c (Pipeline.arrRef spec4 1)) (funext fun a => Fin.ext ?_)
    match a with
    | ⟨0, _⟩ => show win4_1.index t (0 : Fin 2) * 1 + 1 * 0 = 0; omega
    | ⟨1, _⟩ => show win4_1.index t (1 : Fin 2) * 40 + 1 * k.val = k.val; omega

/-- An index of the array is in point `t`'s block iff each coordinate is in the block's range on its axis. -/
theorem mem_blk (t : Fin cfg4.N) (i : S50000x40.Idx) :
    i ∈ ((cfg4.win 2).blk t).view.set ↔ ∀ a : Fin 2, win4_2.index t a * S2000x40.size a ≤ (i a).val ∧ (i a).val < win4_2.index t a * S2000x40.size a + S2000x40.size a := by
  show i ∈ ((View.whole main_v0).slice (win4_2.rect t)).set ↔ _
  rw [View.set_slice_whole, Rect.mem_set_unit]
  exact Iff.rfl

/-- Row r lies in the block of point r / 2000: the 25 blocks cover the array. -/
theorem cover (i : S50000x40.Idx) : ∃ t : Fin cfg4.N, (cfg4.win 2).flush t = true ∧ i ∈ ((cfg4.win 2).blk t).view.set := by
  have hi0 : (i 0).val < 50000 := (i 0).isLt
  have hi1 : (i 1).val < 40 := (i 1).isLt
  have ht : (i 0).val / 2000 < 25 := by omega
  obtain ⟨e0, e1, e2, e3, e4, e5⟩ := idx_facts ⟨(i 0).val / 2000, ht⟩
  refine ⟨⟨(i 0).val / 2000, ht⟩, flush4_2 _, ?_⟩
  rw [mem_blk]
  intro a
  match a with
  | ⟨0, _⟩ =>
    show win4_2.index ⟨(i 0).val / 2000, ht⟩ (0 : Fin 2) * 2000 ≤ (i 0).val ∧ (i 0).val < win4_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win4_2.index ⟨(i 0).val / 2000, ht⟩ (1 : Fin 2) * 40 ≤ (i 1).val ∧ (i 1).val < win4_2.index ⟨(i 0).val / 2000, ht⟩ (1 : Fin 2) * 40 + 40
    rw [e5]; omega

/-- Call 4 leaves the row-wise log-softmax of A + b. -/
theorem arr_eq (c : Dev nD) (A : ((⟨Cert.ReferenceIdeal.S50000x40, .f32⟩ : BufTy).Contents (Elt Ideal))) (b : ((⟨Cert.ReferenceIdeal.S40, .f32⟩ : BufTy).Contents (Elt Ideal)))
    (hA : V c (Pipeline.arrRef spec4 0) = A)
    (hb : ∀ j : Fin 40, V c (Pipeline.arrRef spec4 1) (ValueIdx.ix2 (0 : Fin 1) j) = b (ValueIdx.ix1 j)) :
    (dat4 (F := Ideal) V c).arrAt 2 cfg4.N
      = Cert.ReferenceIdeal.Stages.logSoftmax (F := Ideal) (addf (F := Ideal) (φ := .f32) A (Cert.ReferenceIdeal.ReadP.val_main_v77 (F := Ideal) b)) :=
  (dat4 (F := Ideal) V c).arrAt_eq_of_cover 2 _ (fun t _ => flushed_eq V c A b hA hb t) cover

end Cert.Layer4

end
-- ==== Proof.Host1.lean ====
import proofs.«421492_j40956808135024_2_alg».proof.Proof.Gen.KernelIdeal.Frame
import proofs.«421492_j40956808135024_2_alg».proof.Proof.RefRead
import proofs.«421492_j40956808135024_2_alg».proof.Proof.Mask
import Idealize.ShloMosaic.Lib.ValueIdx
import Idealize.ShloMosaic.Lib.Pipeline.Value
import Idealize.ShloMosaic.Lib.StableHlo.Run

set_option maxRecDepth 16384

noncomputable section

namespace Cert.Host1

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The bounds mask of a row gather whose indices are in range -/

section Mask

open Idealize.ShloMosaic.ValueIdx

/-- A left fold of `and` over one-bit words that are all 1, started at 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by `and` from the initial value 1 over an operand that is 1 everywhere is 1 at every result index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  unfold Host.reduce
  rw [hinit]
  exact foldl_andi_ones (fun n => x (s.rowMajor.symm n)) (fun n => hx _) _

/-- A `select` on the broadcast of a mask that is 1 everywhere is its first operand. -/
theorem select_of_all_true {s t : Shape} {α : Type} (dims : Fin s.rank → Fin t.rank) (hb : s.BroadcastsInDim t dims)
    (M : IVec s 1) (hM : ∀ e, M e = 1#1) (G N : t.Idx → α) :
    select (broadcastInDim t dims hb M) G N = G := by
  funext i
  show Scalar.select (M _) (G i) (N i) = G i
  rw [hM, select_one]

/-- A signed 32-bit row index `s` with −50000 ≤ s < 50000, wrapped as `s + 50000` when negative and kept otherwise,
    lies in [0, 49999]: for s < 0 the sum s + 50000 is in [0, 49999] and does not overflow; for s ≥ 0 it is s itself. -/
theorem wrap_in_bounds (s : BitVec 32) (h : (-50000 : Int) ≤ s.toInt ∧ s.toInt < 50000) :
    IntOp.andi
      (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  obtain ⟨h1, h2⟩ := h
  have h0 : (0#32 : BitVec 32).toInt = 0 := by decide
  have h9 : (49999#32 : BitVec 32).toInt = 49999 := by decide
  have h5 : (50000#32 : BitVec 32).toInt = 50000 := by decide
  by_cases hneg : s.toInt < 0
  · have hc : IntOp.cmpi .slt s 0#32 = 1#1 := by
      unfold IntOp.cmpi
      simp only [BitVec.slt, h0, decide_eq_true hneg]
      rfl
    have hw : (IntOp.addi s 50000#32).toInt = s.toInt + 50000 := by
      show (s + 50000#32).toInt = _
      rw [BitVec.toInt_add, h5]
      exact Int.bmod_eq_of_le_mul_two (by omega) (by omega)
    rw [hc, select_one]
    unfold IntOp.andi IntOp.cmpi
    simp only [BitVec.sle, h0, h9, hw]
    rw [decide_eq_true (by omega), decide_eq_true (by omega)]
    rfl
  · have hc : IntOp.cmpi .slt s 0#32 = 0#1 := by
      unfold IntOp.cmpi
      simp only [BitVec.slt, h0, decide_eq_false hneg]
      rfl
    rw [hc, select_zero]
    unfold IntOp.andi IntOp.cmpi
    simp only [BitVec.sle, h0, h9]
    rw [decide_eq_true (by omega), decide_eq_true (by omega)]
    rfl

/-- The wrapped source indices as a column: `select (src < 0) (src + 50000) src`, laid as [800000 × 1]. -/
def wrapCol (x1 : IVec S800000 32) : IVec S800000x1 32 :=
  broadcastInDim S800000x1 ![0] bcast_S800000_S800000x1_0
    (select (cmpi .slt x1 (broadcastInDim S800000 ![] bcast_S_S800000 (constantI S_ 32 0#32)))
      (addi x1 (broadcastInDim S800000 ![] bcast_S_S800000 (constantI S_ 32 50000#32))) x1)

/-- The bounds mask of the row gather: (0 ≤ w) ∧ (w ≤ 49999) on the column `w` of wrapped indices, reduced by `and`
    over the unit axis. -/
def inBounds (x1 : IVec S800000 32) : IVec S800000 1 :=
  Host.reduce IntOp.andi
    (andi (cmpi .sge (wrapCol x1) (broadcastInDim S800000x1 ![] bcast_S_S800000x1 (constantI S_ 32 0#32)))
      (cmpi .sle (wrapCol x1) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- With every source index in [−50000, 50000) the bounds mask is 1 at every edge. -/
theorem inBounds_true (x1 : IVec S800000 32) (hsrc : Cert.Mask.SrcInRange x1) (e : S800000.Idx) : inBounds x1 e = 1#1 := by
  unfold inBounds
  refine reduce_andi_ones _ _ _ _ (fun _ => rfl) (fun i => ?_) e
  exact wrap_in_bounds _ (hsrc _)

end Mask

/-! ## The arguments as call 0 leaves them -/

theorem W1_arg1 (c : Dev nD) : W1 m ρ c (Proc.devRef .tc main_arg1) = m ((c.tc : Thread nD τ).loc main_arg1) :=
  (W1_of_ne m ρ c main_arg1 (by decide)).trans rfl
theorem W1_arg2 (c : Dev nD) : W1 m ρ c (Proc.devRef .tc main_arg2) = m ((c.tc : Thread nD τ).loc main_arg2) :=
  (W1_of_ne m ρ c main_arg2 (by decide)).trans rfl
theorem W1_arg3 (c : Dev nD) : W1 m ρ c (Proc.devRef .tc main_arg3) = m ((c.tc : Thread nD τ).loc main_arg3) :=
  (W1_of_ne m ρ c main_arg3 (by decide)).trans rfl
theorem W1_arg5 (c : Dev nD) : W1 m ρ c (Proc.devRef .tc main_arg5) = m ((c.tc : Thread nD τ).loc main_arg5) :=
  (W1_of_ne m ρ c main_arg5 (by decide)).trans rfl
theorem W1_arg6 (c : Dev nD) : W1 m ρ c (Proc.devRef .tc main_arg6) = m ((c.tc : Thread nD τ).loc main_arg6) :=
  (W1_of_ne m ρ c main_arg6 (by decide)).trans rfl

/-! ## The gather, the weighting and the sum by target -/

open Cert.ReferenceIdeal.ReadP in
/-- The stretch's operations on the product `h` of call 0, the source and target indices and the edge weights: once
    the bounds mask is all true the masked gather is the plain gather of the rows at the wrapped indices, and the
    weighting and the sum by target index are the reference's, operation for operation. -/
theorem sum_by_target (h : (⟨S50000x96, .f32⟩ : BufTy).Contents (Elt Ideal))
    (x1 x2 : (⟨S800000, .i32⟩ : BufTy).Contents (Elt Ideal)) (x3 : (⟨S800000, .f32⟩ : BufTy).Contents (Elt Ideal))
    (hsrc : Cert.Mask.SrcInRange x1) :
    Host.scatterAdd (F := Ideal) scatter_S50000x96_S800000x1_S800000x96_1_0_0_1
        (broadcastInDim S50000x96 ![] bcast_S_S50000x96 (constant (F := Ideal) S_ .f32 0x00000000#32))
        (broadcastInDim S800000x1 ![0] bcast_S800000_S800000x1_0 x2)
        (mulf
          (select (broadcastInDim S800000x96 ![0] bcast_S800000_S800000x96_0 (inBounds x1))
            (Host.gather gather_S50000x96_S800000x1_S800000x96_1_0_n_n_0_1_196 h (wrapCol x1))
            (broadcastInDim S800000x96 ![] bcast_S_S800000x96 (constant (F := Ideal) S_ .f32 0x7FC00000#32)))
          (broadcastInDim S800000x96 ![0, 1] bcast_S800000x1_S800000x96_0_1
            (broadcastInDim S800000x1 ![0] bcast_S800000_S800000x1_0 x3)))
      = Host.scatterAdd (F := Ideal) Cert.ReferenceIdeal.scatter_S50000x96_S800000x1_S800000x96_1_0_0_1
        (val_main_v11 (F := Ideal)) (val_main_v12 (F := Ideal) x2)
        (mulf (Host.gather Cert.ReferenceIdeal.gather_S50000x96_S800000x1_S800000x96_1_0_n_n_0_1_196 h (val_main_v6 (F := Ideal) x1))
          (val_main_v9 (F := Ideal) x3)) := by
  rw [select_of_all_true _ _ _ (inBounds_true x1 hsrc)]
  rfl

/-! ## Typed references: contents carried to a buffer's own type and back -/

/-- Contents carried to a typed reference's buffer type and back are the contents. -/
theorem ofBuf_toBuf {T : BufTy} (x : StableHlo.TRef sig T) (v : T.Contents (Elt Ideal)) : x.ofBuf (x.toBuf v) = v := by
  rcases x with ⟨r, rfl, _, _⟩; rfl

/-- At the buffer of the sum by target the carried contents are the contents. -/
theorem toBuf_v7 (v : (⟨S50000x96, .f32⟩ : BufTy).Contents (Elt Ideal)) :
    (StableHlo.TRef.of main_call0_v7 : StableHlo.TRef sig ⟨S50000x96, .f32⟩).toBuf v = v := rfl

/-! ## The stretch's reads of what call 0 leaves, at the contents' own types -/

theorem rd_arg1 (c : Dev nD) : (StableHlo.TRef.of main_arg1 : StableHlo.TRef sig ⟨S800000, .i32⟩).ofBuf (W1 m ρ c (Proc.devRef .tc main_arg1)) = m ((c.tc : Thread nD τ).loc main_arg1) :=
  W1_arg1 m ρ c
theorem rd_arg2 (c : Dev nD) : (StableHlo.TRef.of main_arg2 : StableHlo.TRef sig ⟨S800000, .i32⟩).ofBuf (W1 m ρ c (Proc.devRef .tc main_arg2)) = m ((c.tc : Thread nD τ).loc main_arg2) :=
  W1_arg2 m ρ c
theorem rd_arg3 (c : Dev nD) : (StableHlo.TRef.of main_arg3 : StableHlo.TRef sig ⟨S800000, .f32⟩).ofBuf (W1 m ρ c (Proc.devRef .tc main_arg3)) = m ((c.tc : Thread nD τ).loc main_arg3) :=
  W1_arg3 m ρ c

/-- The first stretch of host operations (between calls 0 and 1): with the source indices in range the bounds mask of
    the row gather is all true, so the gather keeps every gathered row; weighting the rows and adding them up by target
    index is then the same operations, in the same order, as the reference's; the bias is only re-laid as a 1×96 row;
    nothing writes the next weight matrix. -/
theorem stretch (c : Dev nD) (hsrc : Cert.Mask.SrcInRange (m ((c.tc : Thread nD τ).loc main_arg1)))
    (h0 : W1 m ρ c (Proc.devRef .tc main_call0_v0) = Cert.ReferenceIdeal.ReadP.val_main_v0 (F := Ideal) (m ((c.tc : Thread nD τ).loc main_arg0)) (m ((c.tc : Thread nD τ).loc main_arg4))) :
    W2 m ρ c (Proc.devRef .tc main_call0_v7) = Cert.ReferenceIdeal.ReadP.val_main_v13 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ (∀ j : Fin 96, W2 m ρ c (Proc.devRef .tc main_call0_v8) (ValueIdx.ix2 (0 : Fin 1) j) = (m ((c.tc : Thread nD τ).loc main_arg5)) (ValueIdx.ix1 j))
    ∧ W2 m ρ c (Proc.devRef .tc main_arg6) = (m ((c.tc : Thread nD τ).loc main_arg6)) := by
  refine ⟨?_, ?_, ?_⟩
  · -- the sum by target: the operations' composed term of the reads, then `sum_by_target`
    have h0' : (StableHlo.TRef.of main_call0_v0 : StableHlo.TRef sig ⟨S50000x96, .f32⟩).ofBuf (W1 m ρ c (Proc.devRef .tc main_call0_v0))
        = Cert.ReferenceIdeal.ReadP.val_main_v0 (F := Ideal) (m ((c.tc : Thread nD τ).loc main_arg0)) (m ((c.tc : Thread nD τ).loc main_arg4)) := h0
    show StableHlo.after hostOps1 (W1 m ρ c) (Proc.devRef .tc main_call0_v7) = _
    after_results_simp
    simp only [ofBuf_toBuf]
    rw [rd_arg1, rd_arg2, rd_arg3, h0', toBuf_v7]
    exact sum_by_target (Cert.ReferenceIdeal.ReadP.val_main_v0 (F := Ideal) (m ((c.tc : Thread nD τ).loc main_arg0)) (m ((c.tc : Thread nD τ).loc main_arg4)))
      (m ((c.tc : Thread nD τ).loc main_arg1)) (m ((c.tc : Thread nD τ).loc main_arg2)) (m ((c.tc : Thread nD τ).loc main_arg3)) hsrc
  · -- the bias as a row: the reshape reads the vector at the same row-major position
    intro j
    show StableHlo.after hostOps1 (W1 m ρ c) (Proc.devRef .tc main_call0_v8) (ValueIdx.ix2 (0 : Fin 1) j) = _
    after_results_simp
    rw [W1_arg5]
    refine shapeCast_apply (s := S96) (t := S1x96) _ _ _ (ValueIdx.ix1 j) ?_
    rw [Shape.rowMajor_val_two, Shape.rowMajor_val_one]
    show (j : Nat) = (0 : Nat) * 96 + (j : Nat)
    omega
  · -- no operation of the stretch writes the next weight matrix
    refine (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ?_
    exact W1_arg6 m ρ c

end Cert.Host1

end
-- ==== Proof.Host2.lean ====
import proofs.«421492_j40956808135024_2_alg».proof.Proof.Gen.KernelIdeal.Frame
import proofs.«421492_j40956808135024_2_alg».proof.Proof.RefRead
import proofs.«421492_j40956808135024_2_alg».proof.Proof.Mask
import Idealize.ShloMosaic.Lib.ValueIdx
import Idealize.ShloMosaic.Lib.Pipeline.Value
import Idealize.ShloMosaic.Lib.StableHlo.Run
import Idealize.ShloMosaic.Lib.ReduceAll
import Idealize.ShloMosaic.Lib.Affine

set_option maxRecDepth 16384

noncomputable section

namespace Cert.Host2

open Idealize.ShloMosaic Idealize.ShloMosaic.TcCoe Idealize.SL.Sem
open Cert.KernelIdeal Cert.KernelIdeal.Gen
open Idealize.ShloMosaic.ValueIdx

/-! ## The gather's bounds mask is all ones on in-range source indices -/

/-- A row index in [−50000, 50000), wrapped from the back when negative, lies in [0, 49999]: a negative index s
    becomes s + 50000 with no overflow, a non-negative one stays. -/
theorem wrap_range (s : BitVec 32) (h : (-50000 : Int) ≤ s.toInt ∧ s.toInt < 50000) :
    (0 : Int) ≤ (Scalar.select (IntOp.cmpi .slt s 0#32) (IntOp.addi s 50000#32) s).toInt
      ∧ (Scalar.select (IntOp.cmpi .slt s 0#32) (IntOp.addi s 50000#32) s).toInt ≤ 49999 := by
  have h0 : (0#32 : BitVec 32).toInt = 0 := by decide
  have h5 : (50000#32 : BitVec 32).toInt = 50000 := by decide
  unfold Scalar.select
  by_cases hc : IntOp.cmpi .slt s 0#32 = 1
  · rw [if_pos hc]
    have hlt : s.toInt < 0 := by have := IntOp.cmpi_slt.1 hc; rw [h0] at this; exact this
    have ha : (IntOp.addi s 50000#32).toInt = s.toInt + 50000 := by
      show (s + 50000#32).toInt = _
      rw [BitVec.toInt_add, h5]
      exact Int.bmod_eq_of_le_mul_two (by omega) (by omega)
    rw [ha]; omega
  · rw [if_neg hc]
    have hge : ¬ s.toInt < 0 := fun hlt => hc (IntOp.cmpi_slt.2 (by rw [h0]; exact hlt))
    omega

/-- A fold by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by "and" from 1 of an array of 1s is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_one x _ fun n _ => hx n

/-- The wrapped row index of every edge: s + 50000 where s is negative, else s. -/
abbrev wrapped (x1 : IVec S800000 32) : IVec S800000 32 :=
  select (cmpi .slt x1 (broadcastInDim S800000 ![] bcast_S_S800000 (constantI S_ 32 0#32)))
    (addi x1 (broadcastInDim S800000 ![] bcast_S_S800000 (constantI S_ 32 50000#32))) x1

/-- On in-range source indices every wrapped index names a row. -/
theorem wrapped_range (x1 : IVec S800000 32) (hsrc : Cert.Mask.SrcInRange x1) (e : S800000.Idx) :
    (0 : Int) ≤ (wrapped x1 e).toInt ∧ (wrapped x1 e).toInt ≤ 49999 :=
  wrap_range (x1 e) (hsrc e)

/-- The in-bounds mask of the row gather at indices W: per edge, (0 ≤ W) and (W ≤ 49999) on the [800000, 1] column of
    W, folded by "and" over the unit axis. -/
abbrev inBounds (W : IVec S800000 32) : IVec S800000 1 :=
  Host.reduce IntOp.andi
    (andi
      (cmpi .sge (broadcastInDim S800000x1 ![0] bcast_S800000_S800000x1_0 W)
        (broadcastInDim S800000x1 ![] bcast_S_S800000x1 (constantI S_ 32 0#32)))
      (cmpi .sle (broadcastInDim S800000x1 ![0] bcast_S800000_S800000x1_0 W)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- When every index is in [0, 49999] the mask is 1 at every edge: both comparisons hold at every entry of the column. -/
theorem inBounds_one (W : IVec S800000 32) (hW : ∀ e, (0 : Int) ≤ (W e).toInt ∧ (W e).toInt ≤ 49999) (e : S800000.Idx) :
    inBounds W e = 1#1 := by
  have h0 : (0#32 : BitVec 32).toInt = 0 := by decide
  have h9 : (49999#32 : BitVec 32).toInt = 49999 := by decide
  refine reduce_andi_one _ _ _ _ (fun i => ?_) (fun _ => rfl) e
  show IntOp.andi (IntOp.cmpi .sge (W _) 0#32) (IntOp.cmpi .sle (W _) 49999#32) = 1#1
  exact IntOp.andi_eq_one.2 ⟨IntOp.cmpi_sge.2 (by rw [h0]; exact (hW _).1), IntOp.cmpi_sle.2 (by rw [h9]; exact (hW _).2)⟩

/-- A broadcast along axes reads, at every index, SOME entry of its operand. -/
theorem bcast_reads {α : Type} {s t : Shape} (dims : Fin s.rank → Fin t.rank) (h : s.BroadcastsInDim t dims) (x : s.Idx → α)
    (j : t.Idx) : ∃ k, broadcastInDim t dims h x j = x k := ⟨_, rfl⟩

/-- So the masked gather is the gather: the select by the mask laid along the rows returns the gathered rows
    whatever the fill. -/
theorem select_inBounds {α : Type} (W : IVec S800000 32) (hW : ∀ e, (0 : Int) ≤ (W e).toInt ∧ (W e).toInt ≤ 49999)
    (G N : S800000x96.Idx → α) :
    select (broadcastInDim S800000x96 ![0] bcast_S800000_S800000x96_0 (inBounds W)) G N = G := by
  funext i
  obtain ⟨k, hk⟩ := bcast_reads ![0] bcast_S800000_S800000x96_0 (inBounds W) i
  show Scalar.select (broadcastInDim S800000x96 ![0] bcast_S800000_S800000x96_0 (inBounds W) i) (G i) (N i) = G i
  rw [hk, inBounds_one W hW k]
  exact if_pos rfl

/-! ## The two programs' dimension records are the same records -/

theorem gather_eq : gather_S50000x96_S800000x1_S800000x96_1_0_n_n_0_1_196
    = Cert.ReferenceIdeal.gather_S50000x96_S800000x1_S800000x96_1_0_n_n_0_1_196 := rfl
theorem scatter_eq : scatter_S50000x96_S800000x1_S800000x96_1_0_0_1
    = Cert.ReferenceIdeal.scatter_S50000x96_S800000x1_S800000x96_1_0_0_1 := rfl

/-! ## Contents at a typed reference: the transport along the reference's type equation is the identity -/

/-- Contents carried to a typed reference's buffer type and back are the contents. -/
theorem ofBuf_toBuf {sig : RefSig} {Val : EltTy → Type} {T : BufTy} (x : StableHlo.TRef sig T) (v : T.Contents Val) :
    x.ofBuf (x.toBuf v) = v := by
  rcases x with ⟨r, rfl, _, _⟩; rfl

/-- At the literal references the stretch reads first and writes last the transport is the identity. -/
theorem ofBuf_arg1 (v : main_arg1.ty.Contents (Elt Ideal)) :
    (StableHlo.TRef.of main_arg1 : StableHlo.TRef sig ⟨S800000, .i32⟩).ofBuf v = v := rfl
theorem ofBuf_arg2 (v : main_arg2.ty.Contents (Elt Ideal)) :
    (StableHlo.TRef.of main_arg2 : StableHlo.TRef sig ⟨S800000, .i32⟩).ofBuf v = v := rfl
theorem ofBuf_arg3 (v : main_arg3.ty.Contents (Elt Ideal)) :
    (StableHlo.TRef.of main_arg3 : StableHlo.TRef sig ⟨S800000, .f32⟩).ofBuf v = v := rfl
theorem ofBuf_v9 (v : main_call0_v9.ty.Contents (Elt Ideal)) :
    (StableHlo.TRef.of main_call0_v9 : StableHlo.TRef sig ⟨S50000x96, .f32⟩).ofBuf v = v := rfl
theorem toBuf_v16 (v : (⟨S50000x96, .f32⟩ : BufTy).Contents (Elt Ideal)) :
    (StableHlo.TRef.of main_call0_v16 : StableHlo.TRef sig ⟨S50000x96, .f32⟩).toBuf v = v := rfl

/-! ## The stretch -/

variable (m : (ℓ : Loc nD τ sig) → Buf (Elt Ideal) ℓ) (ρ : Dev nD → PrngReg)

/-- Argument 1 is as launched when the second stretch starts: no operation of the first stretch and no window of
    calls 0 and 1 writes it. -/
theorem read_arg1 (c : Dev nD) : W3 m ρ c (Proc.devRef .tc main_arg1) = m ((c.tc : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c.tc : Thread nD τ).loc main_arg1) := rfl

/-- Argument 2 is as launched when the second stretch starts: no operation of the first stretch and no window of
    calls 0 and 1 writes it. -/
theorem read_arg2 (c : Dev nD) : W3 m ρ c (Proc.devRef .tc main_arg2) = m ((c.tc : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c.tc : Thread nD τ).loc main_arg2) := rfl

/-- Argument 3 is as launched when the second stretch starts: no operation of the first stretch and no window of
    calls 0 and 1 writes it. -/
theorem read_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c.tc : Thread nD τ).loc main_arg3) := rfl

/-- Argument 7 is as launched when the second stretch starts: no operation of the first stretch and no window of
    calls 0 and 1 writes it. -/
theorem read_arg7 (c : Dev nD) : W3 m ρ c (Proc.devRef .tc main_arg7) = m ((c.tc : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = m ((c.tc : Thread nD τ).loc main_arg7) := rfl

/-- The second stretch (between calls 1 and 2): the same gather, weighting and sum by target as the reference's,
    and the second bias re-laid as a row. -/
theorem stretch (c : Dev nD) (hsrc : Cert.Mask.SrcInRange (m ((c.tc : Thread nD τ).loc main_arg1)))
    (h1 : W3 m ρ c (Proc.devRef .tc main_call0_v9) = Cert.ReferenceIdeal.ReadP.val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    W4 m ρ c (Proc.devRef .tc main_call0_v16) = Cert.ReferenceIdeal.ReadP.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ (∀ j : Fin 96, W4 m ρ c (Proc.devRef .tc main_call0_v17) (ValueIdx.ix2 (0 : Fin 1) j) = (m ((c.tc : Thread nD τ).loc main_arg7)) (ValueIdx.ix1 j)) := by
  have r1 := read_arg1 m ρ c
  have r2 := read_arg2 m ρ c
  have r3 := read_arg3 m ρ c
  have r7 := read_arg7 m ρ c
  refine ⟨?_, fun j => ?_⟩
  · -- the sum by target, as the composition of the stretch's operations over what its inputs hold
    show StableHlo.after hostOps2 (W3 m ρ c) (Proc.devRef .tc main_call0_v16) = _
    after_results_simp
    simp only [ofBuf_toBuf]
    -- the inputs: the hidden array is the reference's (h1), the arguments are as launched
    rw [h1, r1, r2, r3]
    refine (toBuf_v16 _).trans ?_
    simp only [ofBuf_arg1, ofBuf_arg2, ofBuf_arg3, ofBuf_v9]
    -- on in-range sources the bounds mask is all ones, so the masked gather is the gather
    rw [select_inBounds _ (wrapped_range _ hsrc)]
    -- what is left is the reference's chain, operation for operation
    rw [gather_eq, scatter_eq]
    unfold Cert.ReferenceIdeal.ReadP.val_main_v31 Cert.ReferenceIdeal.ReadP.val_main_v30 Cert.ReferenceIdeal.ReadP.val_main_v29
      Cert.ReferenceIdeal.ReadP.val_main_cst_3 Cert.ReferenceIdeal.ReadP.val_main_v28 Cert.ReferenceIdeal.ReadP.val_main_v27
      Cert.ReferenceIdeal.ReadP.val_main_v26 Cert.ReferenceIdeal.ReadP.val_main_v25 Cert.ReferenceIdeal.ReadP.val_main_v24
      Cert.ReferenceIdeal.ReadP.val_main_v23 Cert.ReferenceIdeal.ReadP.val_main_v22 Cert.ReferenceIdeal.ReadP.val_main_v21
      Cert.ReferenceIdeal.ReadP.val_main_c_2 Cert.ReferenceIdeal.ReadP.val_main_v20 Cert.ReferenceIdeal.ReadP.val_main_v19
      Cert.ReferenceIdeal.ReadP.val_main_c_1
    rfl
  · have e17 : W4 m ρ c (Proc.devRef .tc main_call0_v17)
        = fun i => shapeCast S1x96 (m ((c.tc : Thread nD τ).loc main_arg7)) shapeCasts_S96_S1x96 i := by
      show StableHlo.after hostOps2 (W3 m ρ c) (Proc.devRef .tc main_call0_v17) = _
      after_results_simp
      rw [r7]
      rfl
    rw [e17]
    -- entry (0, j) of the row and entry j of the vector sit at the same row-major position j
    show shapeCast S1x96 (m ((c.tc : Thread nD τ).loc main_arg7)) shapeCasts_S96_S1x96 (ix2 (0 : Fin 1) j) = _
    refine shapeCast_apply _ _ (ix2 (0 : Fin 1) j) (ix1 j) ?_
    rw [Shape.rowMajor_val_one, Shape.rowMajor_val_two]
    show j.val = 0 * 96 + j.val
    omega

end Cert.Host2

end
-- ==== Proof.Host3.lean ====
import proofs.«421492_j40956808135024_2_alg».proof.Proof.Gen.KernelIdeal.Frame
import proofs.«421492_j40956808135024_2_alg».proof.Proof.RefRead
import proofs.«421492_j40956808135024_2_alg».proof.Proof.Mask
import Idealize.ShloMosaic.Lib.ValueIdx
import Idealize.ShloMosaic.Lib.Pipeline.Value
import Idealize.ShloMosaic.Lib.StableHlo.Run

set_option maxRecDepth 16384

noncomputable section

namespace Cert.Host3

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A buffer that none of a stretch's operations writes holds after the stretch what it held before it
    (each operation's written buffer is another reference). -/
local macro "unwritten" : tactic =>
  `(tactic| (refine StableHlo.after_of_forall_not_mem _ _ (List.forall_iff_forall_mem.mp ?_)
             simp only [hostOps1, hostOps2, hostOps3, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The last weight matrix is an argument that no call and no host operation up to call 2 writes. -/
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := by unwritten
    _ = W2 m ρ c (Proc.devRef .tc main_arg8) := W3_of_ne m ρ c main_arg8 (by decide)
    _ = W1 m ρ c (Proc.devRef .tc main_arg8) := by unwritten
    _ = W0 m ρ c (Proc.devRef .tc main_arg8) := W1_of_ne m ρ c main_arg8 (by decide)
    _ = m ((c : Thread nD τ).loc main_arg8) := rfl

/-- The normalisation's scale is an argument that no call and no host operation up to call 2 writes. -/
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := by unwritten
    _ = W2 m ρ c (Proc.devRef .tc main_arg10) := W3_of_ne m ρ c main_arg10 (by decide)
    _ = W1 m ρ c (Proc.devRef .tc main_arg10) := by unwritten
    _ = W0 m ρ c (Proc.devRef .tc main_arg10) := W1_of_ne m ρ c main_arg10 (by decide)
    _ = m ((c : Thread nD τ).loc main_arg10) := rfl

/-- The normalisation's shift is an argument that no call and no host operation up to call 2 writes. -/
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := by unwritten
    _ = W2 m ρ c (Proc.devRef .tc main_arg11) := W3_of_ne m ρ c main_arg11 (by decide)
    _ = W1 m ρ c (Proc.devRef .tc main_arg11) := by unwritten
    _ = W0 m ρ c (Proc.devRef .tc main_arg11) := W1_of_ne m ρ c main_arg11 (by decide)
    _ = m ((c : Thread nD τ).loc main_arg11) := rfl

open Cert.ReferenceIdeal.ReadP

/-- The third stretch (between calls 2 and 3) is the group normalisation, operation for operation the reference's;
    nothing writes the last weight matrix. -/
theorem stretch (c : Dev nD)
    (h2 : W5 m ρ c (Proc.devRef .tc main_call0_v18) = Cert.ReferenceIdeal.ReadP.val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    W6 m ρ c (Proc.devRef .tc main_call0_v44) = Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11))
    ∧ W6 m ρ c (Proc.devRef .tc main_arg8) = (m ((c.tc : Thread nD τ).loc main_arg8)) := by
  constructor
  · -- The composed term of the stretch's operations over call 2's output, the scale and the shift; the transports
    -- between a buffer's contents and its tensor type are identities at these references.
    show StableHlo.after hostOps3 (W5 m ρ c) (Proc.devRef .tc main_call0_v44) = _
    after_results_simp
    simp only [cast_eq]
    rw [h2, W5_main_arg10, W5_main_arg11]
    -- The reference's stages, each unfolded to its operation over the stages before it: the same operations in the
    -- same order on the same literals (groups of three channels: the mean, the centred squares' mean, the reciprocal
    -- root of the variance plus epsilon, the scale, the shift).
    unfold val_main_v61 val_main_v60 val_main_v59 val_main_v58 val_main_v57 val_main_v56 val_main_v55 val_main_v54
      val_main_v53 val_main_v52 val_main_v51 val_main_v50 val_main_cst_8 val_main_v49 val_main_v48 val_main_v47
      val_main_v46 val_main_cst_7 val_main_v45 val_main_v44 val_main_cst_6 val_main_v43 val_main_v42 val_main_v41
      val_main_v40 val_main_v39 val_main_cst_5 val_main_v38 val_main_v37 val_main_cst_4 val_main_v36
    rfl
  · -- No operation of the stretch writes the last weight matrix, and nothing before the stretch does.
    exact (show StableHlo.after hostOps3 (W5 m ρ c) (Proc.devRef .tc main_arg8) = W5 m ρ c (Proc.devRef .tc main_arg8) by
      unwritten).trans (W5_main_arg8 m ρ c)

end Cert.Host3

end
-- ==== Proof.Host4.lean ====
import proofs.«421492_j40956808135024_2_alg».proof.Proof.Gen.KernelIdeal.Frame
import proofs.«421492_j40956808135024_2_alg».proof.Proof.RefRead
import proofs.«421492_j40956808135024_2_alg».proof.Proof.Mask
import Idealize.ShloMosaic.Lib.ValueIdx
import Idealize.ShloMosaic.Lib.Pipeline.Value
import Idealize.ShloMosaic.Lib.StableHlo.Run

set_option maxRecDepth 16384

noncomputable section

namespace Cert.Host4

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The wrapped row index of every edge, as an [800000, 1] column: a negative source index counts from the back
    of the 50000-row table, so 50000 is added to it. -/
def wrapIdx (x1 : IVec S800000 32) : IVec S800000x1 32 :=
  broadcastInDim S800000x1 ![0] bcast_S800000_S800000x1_0
    (select (cmpi .slt x1 (broadcastInDim S800000 ![] bcast_S_S800000 (constantI S_ 32 0#32)))
      (addi x1 (broadcastInDim S800000 ![] bcast_S_S800000 (constantI S_ 32 50000#32))) x1)

/-- The in-bounds word of every edge: 0 ≤ w and w ≤ 49999 for its wrapped index w, folded by "and" over the unit axis. -/
def inBounds (x1 : IVec S800000 32) : IVec S800000 1 :=
  Host.reduce IntOp.andi
    (andi (cmpi .sge (wrapIdx x1) (broadcastInDim S800000x1 ![] bcast_S_S800000x1 (constantI S_ 32 0#32)))
      (cmpi .sle (wrapIdx x1) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Rows taken with a fill: where the in-bounds word is set the taken row G, elsewhere the fill N. -/
def takeFill (x1 : IVec S800000 32) (G N : FVec Ideal S800000x40 .f32) : FVec Ideal S800000x40 .f32 :=
  select (broadcastInDim S800000x40 ![0] bcast_S800000_S800000x40_0 (inBounds x1)) G N

/-- The stretch's sum by target, as a function of the table H it gathers from and of the three edge arrays. -/
def sumByTarget (H : FVec Ideal S50000x40 .f32) (x1 x2 : IVec S800000 32) (x3 : FVec Ideal S800000 .f32) :
    FVec Ideal S50000x40 .f32 :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 x2)
    (mulf
      (takeFill x1 (Host.gather gather_S50000x40_S800000x1_S800000x40_1_0_n_n_0_1_140 H (wrapIdx x1))
        (broadcastInDim S800000x40 ![] bcast_S_S800000x40 (constant S_ .f32 0x7FC00000#32)))
      (broadcastInDim S800000x40 ![0, 1] bcast_S800000x1_S800000x40_0_1
        (broadcastInDim S800000x1 ![0] bcast_S800000_S800000x1_0 x3)))

/-- Transport along an equation of types and back is the identity. -/
theorem cast_cast_self {A B : Sort _} (h1 : A = B) (h2 : B = A) (a : A) : cast h2 (cast h1 a) = a := by
  subst h1; rfl

/-- What the stretch leaves in its sum buffer, over any contents V it starts from: the operations composed. -/
theorem after_v52 (V : Valuation τ sig (Elt Ideal)) :
    StableHlo.after hostOps4 V (Proc.devRef .tc main_call0_v52)
      = sumByTarget (V (Proc.devRef .tc main_call0_v45)) (V (Proc.devRef .tc main_arg1))
          (V (Proc.devRef .tc main_arg2)) (V (Proc.devRef .tc main_arg3)) := by
  after_results_simp
  simp only [cast_cast_self]
  simp only [cast_eq]
  unfold sumByTarget takeFill inBounds wrapIdx
  rfl

/-! ## Every edge is in bounds -/

/-- A fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a List.mem_cons_self, h11]
    exact foldl_andi_one f l fun n hn => h n (List.mem_cons_of_mem _ hn)

/-- A source index s with −50000 ≤ s < 50000 wraps to w = s + 50000 (s negative, no overflow) or w = s, and
    either way 0 ≤ w ≤ 49999: both comparison words are 1. -/
theorem wrap_in_bounds (s : BitVec 32) (h1 : (-50000 : Int) ≤ s.toInt) (h2 : s.toInt < 50000) :
    IntOp.andi (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  have h0 : (0#32 : BitVec 32).toInt = 0 := by decide
  have h5 : (50000#32 : BitVec 32).toInt = 50000 := by decide
  have h4 : (49999#32 : BitVec 32).toInt = 49999 := by decide
  rw [IntOp.andi_eq_one, IntOp.cmpi_sge, IntOp.cmpi_sle, h0, h4]
  by_cases hc : IntOp.cmpi .slt s 0#32 = 1#1
  · have hw : Scalar.select (IntOp.cmpi .slt s 0#32) (IntOp.addi s 50000#32) s = IntOp.addi s 50000#32 :=
      if_pos hc
    have hneg : s.toInt < 0 := by have := IntOp.cmpi_slt.1 hc; rwa [h0] at this
    have ha : (IntOp.addi s 50000#32).toInt = s.toInt + 50000 := by
      show (s + 50000#32).toInt = _
      rw [BitVec.toInt_add, h5]
      exact Int.bmod_eq_of_le (by omega) (by omega)
    rw [hw, ha]; omega
  · have hw : Scalar.select (IntOp.cmpi .slt s 0#32) (IntOp.addi s 50000#32) s = s := if_neg hc
    have hpos : ¬ s.toInt < 0 := fun h => hc (IntOp.cmpi_slt.2 (by rw [h0]; exact h))
    rw [hw]; omega

/-- The wrapped index at a position of the column is the wrapped word of some edge. -/
theorem wrapIdx_apply (x1 : IVec S800000 32) (i : S800000x1.Idx) :
    ∃ e : S800000.Idx, wrapIdx x1 i
      = Scalar.select (IntOp.cmpi .slt (x1 e) 0#32) (IntOp.addi (x1 e) 50000#32) (x1 e) := ⟨_, rfl⟩

/-- Under the range of the source indices the in-bounds word of every edge is 1. -/
theorem inBounds_eq_one (x1 : IVec S800000 32) (hsrc : Cert.Mask.SrcInRange x1) (e : S800000.Idx) :
    inBounds x1 e = 1#1 := by
  unfold inBounds
  rw [Host.reduce_eq_foldl]
  apply foldl_andi_one
  intro i _
  obtain ⟨e', he'⟩ := wrapIdx_apply x1 i
  show IntOp.andi (IntOp.cmpi .sge (wrapIdx x1 i) 0#32) (IntOp.cmpi .sle (wrapIdx x1 i) 49999#32) = 1#1
  rw [he']
  exact wrap_in_bounds _ (hsrc e').1 (hsrc e').2

/-- So the fill is never taken: the rows taken with a fill are the taken rows. -/
theorem takeFill_eq (x1 : IVec S800000 32) (hsrc : Cert.Mask.SrcInRange x1) (G N : FVec Ideal S800000x40 .f32) :
    takeFill x1 G N = G := by
  funext i
  have hb : broadcastInDim S800000x40 ![0] bcast_S800000_S800000x40_0 (inBounds x1) i = 1#1 :=
    inBounds_eq_one x1 hsrc _
  show Scalar.select (broadcastInDim S800000x40 ![0] bcast_S800000_S800000x40_0 (inBounds x1) i) (G i) (N i) = G i
  rw [hb]
  exact if_pos rfl

/-! ## The contents the stretch starts from -/

/-- No operation of the stretch writes an argument of the program. -/
local macro "arg_unwritten" : tactic =>
  `(tactic| exact StableHlo.after_of_forall_not_mem _ _ (List.forall_iff_forall_mem.mp (by
      simp only [hostOps4, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

theorem W7_arg1 (c : Dev nD) : W7 m ρ c (Proc.devRef .tc main_arg1) = m ((c.tc : Thread nD τ).loc main_arg1) :=
  ((W9_of_ne m ρ c main_arg1 (by decide)).trans (by arg_unwritten)).symm.trans (W9_main_arg1 m ρ c)
theorem W7_arg2 (c : Dev nD) : W7 m ρ c (Proc.devRef .tc main_arg2) = m ((c.tc : Thread nD τ).loc main_arg2) :=
  ((W9_of_ne m ρ c main_arg2 (by decide)).trans (by arg_unwritten)).symm.trans (W9_main_arg2 m ρ c)
theorem W7_arg3 (c : Dev nD) : W7 m ρ c (Proc.devRef .tc main_arg3) = m ((c.tc : Thread nD τ).loc main_arg3) :=
  ((W9_of_ne m ρ c main_arg3 (by decide)).trans (by arg_unwritten)).symm.trans (W9_main_arg3 m ρ c)
theorem W7_arg9 (c : Dev nD) : W7 m ρ c (Proc.devRef .tc main_arg9) = m ((c.tc : Thread nD τ).loc main_arg9) :=
  ((W9_of_ne m ρ c main_arg9 (by decide)).trans (by arg_unwritten)).symm.trans (W9_main_arg9 m ρ c)

/-- The two programs' gather and sum-by-index records are the same records. -/
theorem gather_eq : Cert.KernelIdeal.gather_S50000x40_S800000x1_S800000x40_1_0_n_n_0_1_140
    = Cert.ReferenceIdeal.gather_S50000x40_S800000x1_S800000x40_1_0_n_n_0_1_140 := rfl
theorem scatter_eq : Cert.KernelIdeal.scatter_S50000x40_S800000x1_S800000x40_1_0_0_1
    = Cert.ReferenceIdeal.scatter_S50000x40_S800000x1_S800000x40_1_0_0_1 := rfl

/-- The fourth stretch (between calls 3 and 4): gather, weighting and sum by target over 40 columns, and the last
    bias re-laid as a 1×40 row. -/
theorem stretch (c : Dev nD) (hsrc : Cert.Mask.SrcInRange (m ((c.tc : Thread nD τ).loc main_arg1)))
    (h3 : W7 m ρ c (Proc.devRef .tc main_call0_v45) = Cert.ReferenceIdeal.ReadP.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11))) :
    W8 m ρ c (Proc.devRef .tc main_call0_v52) = Cert.ReferenceIdeal.ReadP.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11))
    ∧ (∀ j : Fin 40, W8 m ρ c (Proc.devRef .tc main_call0_v53) (ValueIdx.ix2 (0 : Fin 1) j) = (m ((c.tc : Thread nD τ).loc main_arg9)) (ValueIdx.ix1 j)) := by
  refine ⟨?_, ?_⟩
  · show StableHlo.after hostOps4 (W7 m ρ c) (Proc.devRef .tc main_call0_v52) = _
    rw [after_v52, h3, W7_arg1 m ρ c, W7_arg2 m ρ c, W7_arg3 m ρ c]
    unfold sumByTarget
    rw [takeFill_eq _ hsrc, gather_eq, scatter_eq]
    unfold wrapIdx
    unfold Cert.ReferenceIdeal.ReadP.val_main_v75 Cert.ReferenceIdeal.ReadP.val_main_v74
      Cert.ReferenceIdeal.ReadP.val_main_v73 Cert.ReferenceIdeal.ReadP.val_main_cst_11
      Cert.ReferenceIdeal.ReadP.val_main_v72 Cert.ReferenceIdeal.ReadP.val_main_v71
      Cert.ReferenceIdeal.ReadP.val_main_v70 Cert.ReferenceIdeal.ReadP.val_main_v69
      Cert.ReferenceIdeal.ReadP.val_main_v68 Cert.ReferenceIdeal.ReadP.val_main_v67
      Cert.ReferenceIdeal.ReadP.val_main_v66 Cert.ReferenceIdeal.ReadP.val_main_v65
      Cert.ReferenceIdeal.ReadP.val_main_c_10 Cert.ReferenceIdeal.ReadP.val_main_v64
      Cert.ReferenceIdeal.ReadP.val_main_v63 Cert.ReferenceIdeal.ReadP.val_main_c_9
    rfl
  · intro j
    show StableHlo.after hostOps4 (W7 m ρ c) (Proc.devRef .tc main_call0_v53) (ValueIdx.ix2 (0 : Fin 1) j) = _
    after_results_simp
    rw [W7_arg9 m ρ c]
    exact shapeCast_apply (s := S40) (t := S1x40) _ _ _ (ValueIdx.ix1 j) (by
      rw [Shape.rowMajor_val_one, Shape.rowMajor_val_two]
      show j.val = 0 * 40 + j.val
      omega)

end Cert.Host4

end
-- ==== Proof.KernelValue.lean ====
import proofs.«421492_j40956808135024_2_alg».proof.Proof.Gen.KernelIdeal.Frame
import proofs.«421492_j40956808135024_2_alg».proof.Proof.RefRead
import proofs.«421492_j40956808135024_2_alg».proof.Proof.RefLsm
import proofs.«421492_j40956808135024_2_alg».proof.Proof.Mask
import proofs.«421492_j40956808135024_2_alg».proof.Proof.Layer0
import proofs.«421492_j40956808135024_2_alg».proof.Proof.Layer1
import proofs.«421492_j40956808135024_2_alg».proof.Proof.Layer2
import proofs.«421492_j40956808135024_2_alg».proof.Proof.Layer3
import proofs.«421492_j40956808135024_2_alg».proof.Proof.Layer4
import proofs.«421492_j40956808135024_2_alg».proof.Proof.Host1
import proofs.«421492_j40956808135024_2_alg».proof.Proof.Host2
import proofs.«421492_j40956808135024_2_alg».proof.Proof.Host3
import proofs.«421492_j40956808135024_2_alg».proof.Proof.Host4

set_option maxRecDepth 16384

noncomputable section

namespace Cert.KernelValue

open Idealize.ShloMosaic Idealize.ShloMosaic.TcCoe Idealize.SL.Sem
open Cert.KernelIdeal Cert.KernelIdeal.Gen
open Cert.ReferenceIdeal.ReadP (val_main_v0 val_main_v13 val_main_v16 val_main_v17 val_main_v18 val_main_v31 val_main_v34 val_main_v35
  val_main_v61 val_main_v62 val_main_v75 val_main_v78 val_main_v79 val_main_call2_v0 val_main_call2_v2 val_main_call2_v3 val_main_call2_v4
  val_main_call2_v5 val_main_call2_v6 val_main_call2_v7 val_main_call2_v8 val_main_call2_v9 val_main_call2_v10)

variable (m : (ℓ : Loc nD τ sig) → Buf (Elt Ideal) ℓ) (ρ : Dev nD → PrngReg)

/-- What the five-call program leaves in its result array, when every source index names a row: the reference's
    last stage of the twelve arguments. Layer by layer: a call's output array is its whole-array function of what
    the call finds in its input arrays; a host stretch between two calls applies the reference's own operations to
    what the call before it left; so each boundary of the run holds the reference's stage of the arguments. -/
theorem value (c : Dev nD) (hsrc : Cert.Mask.SrcInRange (m ((c.tc : Thread nD τ).loc main_arg1))) :
    W9 m ρ c (Proc.devRef .tc main_v0) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  -- call 0: x · W1
  have e0 : W1 m ρ c (Proc.devRef .tc main_call0_v0) = val_main_v0 (F := Ideal) (m ((c.tc : Thread nD τ).loc main_arg0)) (m ((c.tc : Thread nD τ).loc main_arg4)) :=
    (W1_arr m ρ c 2).trans (Cert.Layer0.arr_eq (V0 m ρ) c)
  -- stretch 1: the weighted rows summed by target; the bias as a row
  obtain ⟨e1a, e1b, e1w⟩ := Cert.Host1.stretch m ρ c hsrc e0
  -- call 1: relu(agg1 + b1) · W2
  have e2 : W3 m ρ c (Proc.devRef .tc main_call0_v9) = val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
    have h := Cert.Layer1.arr_eq (V2 m ρ) c _ _ e1a e1b
    rw [show V2 m ρ c (Pipeline.arrRef spec1 2) = _ from e1w] at h
    refine (W3_arr m ρ c 3).trans (h.trans ?_)
    unfold val_main_v18 val_main_v17 val_main_v16
    rfl
  -- stretch 2
  obtain ⟨e3a, e3b⟩ := Cert.Host2.stretch m ρ c hsrc e2
  -- call 2: relu(agg2 + b2)
  have e4 : W5 m ρ c (Proc.devRef .tc main_call0_v18) = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    refine (W5_arr m ρ c 2).trans ((Cert.Layer2.arr_eq (V4 m ρ) c _ _ e3a e3b).trans ?_)
    unfold val_main_v35 val_main_v34
    rfl
  -- stretch 3: the group normalisation
  obtain ⟨e5a, e5w⟩ := Cert.Host3.stretch m ρ c e4
  -- call 3: hn · W3
  have e6 : W7 m ρ c (Proc.devRef .tc main_call0_v45) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) := by
    have h := Cert.Layer3.arr_eq (V6 m ρ) c
    rw [show V6 m ρ c (Pipeline.arrRef spec3 0) = _ from e5a, show V6 m ρ c (Pipeline.arrRef spec3 1) = _ from e5w] at h
    refine (W7_arr m ρ c 2).trans (h.trans ?_)
    unfold val_main_v62
    rfl
  -- stretch 4
  obtain ⟨e7a, e7b⟩ := Cert.Host4.stretch m ρ c hsrc e6
  -- call 4: log-softmax of agg3 + b3
  refine (W9_arr m ρ c 2).trans ((Cert.Layer4.arr_eq (V8 m ρ) c _ _ e7a e7b).trans ?_)
  unfold Cert.ReferenceIdeal.Stages.logSoftmax Cert.ReferenceIdeal.Stages.rowMax val_main_v79 val_main_call2_v10 val_main_call2_v9
    val_main_call2_v8 val_main_call2_v7 val_main_call2_v6 val_main_call2_v5 val_main_call2_v4 val_main_call2_v3 val_main_call2_v2
    val_main_call2_v0 val_main_v78
  rfl

end Cert.KernelValue

end
-- ==== Proof.RefRunH.lean ====
import proofs.«421492_j40956808135024_2_alg».proof.Proof.RefRun
import proofs.«421492_j40956808135024_2_alg».proof.Proof.RefRead
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option quotPrecheck false in
local notation "Arr[" s ", " e "]" => BufTy.Contents (Elt F) (BufTy.mk s e)
set_option quotPrecheck false in
local notation "⟪" b "⟫" => (Proc.devRef (τ := τ) Proc.tc b : DevRef τ sig)

/-! ### The arguments are never written -/

set_option maxRecDepth 8192 in
set_option maxHeartbeats 4000000 in
/-- No operation of the program writes an argument array: the arguments are the first twelve arrays of the program's
    table, and each operation writes one array, its result, which comes later in the table. -/
theorem arg_not_written {b : Ref sig .tc} (hb : b.idx.val < 12) :
    ∀ op ∈ (ops : List (HloOp τ sig (Elt F))), ⟪b⟫ ∉ op.writes := by
  refine List.forall_iff_forall_mem.mp ?_
  simp only [ops, List.Forall, nullary_writes, unary_writes, binary_writes, ternary_writes, reshape_writes,
    Finset.mem_singleton]
  repeat' apply And.intro
  all_goals (intro e; cases Proc.devRef_injective _ e; exact absurd hb (by decide))

/-- A line made of operations of the program leaves every argument array as it was. -/
theorem keep (l : List (HloOp τ sig (Elt F))) (hl : ∀ op ∈ l, op ∈ (ops : List (HloOp τ sig (Elt F))))
    (W : Valuation τ sig (Elt F)) (b : Ref sig .tc) (hb : b.idx.val < 12) : after l W ⟪b⟫ = W ⟪b⟫ :=
  after_of_forall_not_mem l W fun op h => arg_not_written hb op (hl op h)

/-! ### The program in five stretches -/

def c1 : List (HloOp τ sig (Elt F)) := ops.take 23
def c2 : List (HloOp τ sig (Elt F)) := (ops.drop 23).take 23
def c3 : List (HloOp τ sig (Elt F)) := (ops.drop 46).take 31
def c4 : List (HloOp τ sig (Elt F)) := (ops.drop 77).take 20
def c5 : List (HloOp τ sig (Elt F)) := ops.drop 97

set_option maxRecDepth 8192 in
theorem ops_split : (ops : List (HloOp τ sig (Elt F))) = c1 ++ (c2 ++ (c3 ++ (c4 ++ c5))) := rfl

theorem sub1 : ∀ op ∈ (c1 : List (HloOp τ sig (Elt F))), op ∈ (ops : List (HloOp τ sig (Elt F))) :=
  fun _ h => List.mem_of_mem_take h
theorem sub2 : ∀ op ∈ (c2 : List (HloOp τ sig (Elt F))), op ∈ (ops : List (HloOp τ sig (Elt F))) :=
  fun _ h => List.mem_of_mem_drop (List.mem_of_mem_take h)
theorem sub3 : ∀ op ∈ (c3 : List (HloOp τ sig (Elt F))), op ∈ (ops : List (HloOp τ sig (Elt F))) :=
  fun _ h => List.mem_of_mem_drop (List.mem_of_mem_take h)
theorem sub4 : ∀ op ∈ (c4 : List (HloOp τ sig (Elt F))), op ∈ (ops : List (HloOp τ sig (Elt F))) :=
  fun _ h => List.mem_of_mem_drop (List.mem_of_mem_take h)

/-! ### A called function's operations name their arrays with the value's type attached

An operation inlined from a called function stores its result through the transport from the value's type to the
array's type and reads its operands through the transport back; for an array of the table both types are the same
and both transports are the identity. -/

/-- Reading back, at the value's type, what was stored from it: the two transports are along one equation, there and
    back. -/
theorem ofBuf_toBuf {T : BufTy} (x : TRef sig T) (v : T.Contents (Elt F)) : x.ofBuf (x.toBuf v) = v := by
  rcases x with ⟨r, rfl, _, _⟩; rfl

/-- The third layer's output read by the called function: the array's own contents. -/
theorem ofBuf_v78 (p1 p2 p3) (v : Arr[S50000x40, .f32]) :
    (TRef.of (sig := sig) (T := ⟨S50000x40, .f32⟩) main_v78 p1 p2 p3).ofBuf (Val := Elt F) v = v := rfl

/-- The called function's result stored into the program's result array: the value itself. -/
theorem toBuf_v79 (p1 p2 p3) (v : Arr[S50000x40, .f32]) :
    (TRef.of (sig := sig) (T := ⟨S50000x40, .f32⟩) main_v79 p1 p2 p3).toBuf (Val := Elt F) v = v := rfl

/-! ### Each stretch, from a valuation that holds the stage before it

The stretch's fold at its last result is the composed term of what the stretch reads; the arrays it reads hold the
arguments and the previous stage, and the stage functions are defined by exactly these compositions. -/

/-- Operations 1 to 23: the first layer (projection, gather by source, weighting, scatter by destination, bias,
    rectifier). -/
theorem stage17 (W : Valuation τ sig (Elt F))
    (x0 : Arr[S50000x128, .f32]) (x1 x2 : Arr[S800000, .i32]) (x3 : Arr[S800000, .f32]) (x4 : Arr[S128x96, .f32])
    (x5 : Arr[S96, .f32])
    (h0 : W ⟪main_arg0⟫ = x0) (h1 : W ⟪main_arg1⟫ = x1) (h2 : W ⟪main_arg2⟫ = x2) (h3 : W ⟪main_arg3⟫ = x3)
    (h4 : W ⟪main_arg4⟫ = x4) (h5 : W ⟪main_arg5⟫ = x5) :
    after c1 W ⟪main_v17⟫ = val_main_v17 x0 x1 x2 x3 x4 x5 := by
  unfold c1
  simp only [ops, List.take_succ_cons, List.take_zero]
  after_results_simp
  rw [h0, h1, h2, h3, h4, h5]
  rfl

/-- Operations 24 to 46: the second layer, from the first layer's output. -/
theorem stage35 (W : Valuation τ sig (Elt F))
    (x0 : Arr[S50000x128, .f32]) (x1 x2 : Arr[S800000, .i32]) (x3 : Arr[S800000, .f32]) (x4 : Arr[S128x96, .f32])
    (x5 : Arr[S96, .f32]) (x6 : Arr[S96x96, .f32]) (x7 : Arr[S96, .f32])
    (h1 : W ⟪main_arg1⟫ = x1) (h2 : W ⟪main_arg2⟫ = x2) (h3 : W ⟪main_arg3⟫ = x3)
    (h6 : W ⟪main_arg6⟫ = x6) (h7 : W ⟪main_arg7⟫ = x7)
    (hv : W ⟪main_v17⟫ = val_main_v17 x0 x1 x2 x3 x4 x5) :
    after c2 W ⟪main_v35⟫ = val_main_v35 x0 x1 x2 x3 x4 x5 x6 x7 := by
  unfold c2
  simp only [ops, List.drop_succ_cons, List.drop_zero, List.take_succ_cons, List.take_zero]
  after_results_simp
  rw [h1, h2, h3, h6, h7, hv]
  rfl

/-- Operations 47 to 77: the normalisation over groups of three (mean, centred square, variance, reciprocal root),
    then scale and shift. -/
theorem stage61 (W : Valuation τ sig (Elt F))
    (x0 : Arr[S50000x128, .f32]) (x1 x2 : Arr[S800000, .i32]) (x3 : Arr[S800000, .f32]) (x4 : Arr[S128x96, .f32])
    (x5 : Arr[S96, .f32]) (x6 : Arr[S96x96, .f32]) (x7 x10 x11 : Arr[S96, .f32])
    (h10 : W ⟪main_arg10⟫ = x10) (h11 : W ⟪main_arg11⟫ = x11)
    (hv : W ⟪main_v35⟫ = val_main_v35 x0 x1 x2 x3 x4 x5 x6 x7) :
    after c3 W ⟪main_v61⟫ = val_main_v61 x0 x1 x2 x3 x4 x5 x6 x7 x10 x11 := by
  unfold c3
  simp only [ops, List.drop_succ_cons, List.drop_zero, List.take_succ_cons, List.take_zero]
  after_results_simp
  rw [h10, h11, hv]
  rfl

/-- Operations 78 to 97: the third layer, without rectifier. -/
theorem stage78 (W : Valuation τ sig (Elt F))
    (x0 : Arr[S50000x128, .f32]) (x1 x2 : Arr[S800000, .i32]) (x3 : Arr[S800000, .f32]) (x4 : Arr[S128x96, .f32])
    (x5 : Arr[S96, .f32]) (x6 : Arr[S96x96, .f32]) (x7 : Arr[S96, .f32]) (x8 : Arr[S96x40, .f32]) (x9 : Arr[S40, .f32])
    (x10 x11 : Arr[S96, .f32])
    (h1 : W ⟪main_arg1⟫ = x1) (h2 : W ⟪main_arg2⟫ = x2) (h3 : W ⟪main_arg3⟫ = x3)
    (h8 : W ⟪main_arg8⟫ = x8) (h9 : W ⟪main_arg9⟫ = x9)
    (hv : W ⟪main_v61⟫ = val_main_v61 x0 x1 x2 x3 x4 x5 x6 x7 x10 x11) :
    after c4 W ⟪main_v78⟫ = val_main_v78 x0 x1 x2 x3 x4 x5 x6 x7 x8 x9 x10 x11 := by
  unfold c4
  simp only [ops, List.drop_succ_cons, List.drop_zero, List.take_succ_cons, List.take_zero]
  after_results_simp
  rw [h1, h2, h3, h8, h9, hv]
  rfl

/-- Operations 98 to 112: the logarithm of the softmax along each row. -/
theorem stage79 (W : Valuation τ sig (Elt F))
    (x0 : Arr[S50000x128, .f32]) (x1 x2 : Arr[S800000, .i32]) (x3 : Arr[S800000, .f32]) (x4 : Arr[S128x96, .f32])
    (x5 : Arr[S96, .f32]) (x6 : Arr[S96x96, .f32]) (x7 : Arr[S96, .f32]) (x8 : Arr[S96x40, .f32]) (x9 : Arr[S40, .f32])
    (x10 x11 : Arr[S96, .f32])
    (hv : W ⟪main_v78⟫ = val_main_v78 x0 x1 x2 x3 x4 x5 x6 x7 x8 x9 x10 x11) :
    after c5 W ⟪main_v79⟫ = val_main_v79 x0 x1 x2 x3 x4 x5 x6 x7 x8 x9 x10 x11 := by
  unfold c5
  simp only [ops, List.drop_succ_cons, List.drop_zero]
  after_results_simp
  simp only [ofBuf_toBuf]
  rw [toBuf_v79, hv, ofBuf_v78]
  rfl

/-! ### The whole program -/

/-- The fold of all 112 operations at the result array is the last stage's function of the arguments: the five
    stretches in a row, each from what the one before leaves; a stretch reads arguments in the valuation it starts
    from, where they are still as at the start. -/
theorem result (V : Valuation τ sig (Elt F))
    (x0 : Arr[S50000x128, .f32]) (x1 x2 : Arr[S800000, .i32]) (x3 : Arr[S800000, .f32]) (x4 : Arr[S128x96, .f32])
    (x5 : Arr[S96, .f32]) (x6 : Arr[S96x96, .f32]) (x7 : Arr[S96, .f32]) (x8 : Arr[S96x40, .f32]) (x9 : Arr[S40, .f32])
    (x10 x11 : Arr[S96, .f32])
    (h0 : V ⟪main_arg0⟫ = x0) (h1 : V ⟪main_arg1⟫ = x1) (h2 : V ⟪main_arg2⟫ = x2) (h3 : V ⟪main_arg3⟫ = x3)
    (h4 : V ⟪main_arg4⟫ = x4) (h5 : V ⟪main_arg5⟫ = x5) (h6 : V ⟪main_arg6⟫ = x6) (h7 : V ⟪main_arg7⟫ = x7)
    (h8 : V ⟪main_arg8⟫ = x8) (h9 : V ⟪main_arg9⟫ = x9) (h10 : V ⟪main_arg10⟫ = x10) (h11 : V ⟪main_arg11⟫ = x11) :
    after ops V ⟪main_v79⟫ = val_main_v79 x0 x1 x2 x3 x4 x5 x6 x7 x8 x9 x10 x11 := by
  have k1 : ∀ b : Ref sig .tc, b.idx.val < 12 → after c1 V ⟪b⟫ = V ⟪b⟫ := fun b hb => keep c1 sub1 V b hb
  have k2 : ∀ b : Ref sig .tc, b.idx.val < 12 → after c2 (after c1 V) ⟪b⟫ = V ⟪b⟫ :=
    fun b hb => (keep c2 sub2 _ b hb).trans (k1 b hb)
  have k3 : ∀ b : Ref sig .tc, b.idx.val < 12 → after c3 (after c2 (after c1 V)) ⟪b⟫ = V ⟪b⟫ :=
    fun b hb => (keep c3 sub3 _ b hb).trans (k2 b hb)
  have s17 := stage17 V x0 x1 x2 x3 x4 x5 h0 h1 h2 h3 h4 h5
  have s35 := stage35 (after c1 V) x0 x1 x2 x3 x4 x5 x6 x7 ((k1 main_arg1 (by decide)).trans h1)
    ((k1 main_arg2 (by decide)).trans h2) ((k1 main_arg3 (by decide)).trans h3) ((k1 main_arg6 (by decide)).trans h6)
    ((k1 main_arg7 (by decide)).trans h7) s17
  have s61 := stage61 (after c2 (after c1 V)) x0 x1 x2 x3 x4 x5 x6 x7 x10 x11 ((k2 main_arg10 (by decide)).trans h10)
    ((k2 main_arg11 (by decide)).trans h11) s35
  have s78 := stage78 (after c3 (after c2 (after c1 V))) x0 x1 x2 x3 x4 x5 x6 x7 x8 x9 x10 x11
    ((k3 main_arg1 (by decide)).trans h1) ((k3 main_arg2 (by decide)).trans h2) ((k3 main_arg3 (by decide)).trans h3)
    ((k3 main_arg8 (by decide)).trans h8) ((k3 main_arg9 (by decide)).trans h9) s61
  rw [ops_split, after_append, after_append, after_append, after_append]
  exact stage79 _ x0 x1 x2 x3 x4 x5 x6 x7 x8 x9 x10 x11 s78

/-! ### The run -/

/-- The reference's run: from any memory with zero counters every weakly fair execution of its 112 host operations
    terminates; the result array then holds the last stage's function of the twelve argument arrays, and the
    arguments are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = val_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun _ h c => ?_)
    (run_seq scopedRefs_eq scopedSems_eq defs main (fun _ => ops) main_eq (fun _ => ops_sub) m ρ)
  have ka : ∀ b : Ref sig .tc, b.idx.val < 12 →
      after ops (launchContents m c) ⟪b⟫ = launchContents m c ⟪b⟫ := fun b hb => keep ops (fun _ h => h) _ b hb
  exact ⟨(h c main_v79).trans
      (result (launchContents m c) _ _ _ _ _ _ _ _ _ _ _ _ rfl rfl rfl rfl rfl rfl rfl rfl rfl rfl rfl rfl),
    (h c main_arg0).trans (ka main_arg0 (by decide)), (h c main_arg1).trans (ka main_arg1 (by decide)),
    (h c main_arg2).trans (ka main_arg2 (by decide)), (h c main_arg3).trans (ka main_arg3 (by decide)),
    (h c main_arg4).trans (ka main_arg4 (by decide)), (h c main_arg5).trans (ka main_arg5 (by decide)),
    (h c main_arg6).trans (ka main_arg6 (by decide)), (h c main_arg7).trans (ka main_arg7 (by decide)),
    (h c main_arg8).trans (ka main_arg8 (by decide)), (h c main_arg9).trans (ka main_arg9 (by decide)),
    (h c main_arg10).trans (ka main_arg10 (by decide)), (h c main_arg11).trans (ka main_arg11 (by decide))⟩

end Cert.ReferenceIdeal.RunH

end
-- ==== Proof.lean ====
/- The two programs compute the same three-layer graph convolution network on 50000 nodes and 800000 weighted edges:
   layer k gathers the projected node rows at the edges' source indices, weights each gathered row by its edge's weight
   and adds the rows up by target index; between the layers a bias, a relu and (after layer 2) a group normalisation
   over 32 groups of 3 channels; at the end a row-wise log-softmax over 40 classes.
   The kernel program computes the projections and the bias stages in five tiled calls (25 row blocks of 2000 rows
   each) and everything else by the same host operations as the reference. At the extended reals a change of float
   format is the identity and a matrix product into a zero accumulator is the plain sum over the contraction index, so
   each call's output array is the reference's stage of the same inputs, block by block.
   The one place where the programs differ is the row gather: the kernel's fills a row whose source index lies outside
   the table with a not-a-number pattern, the reference's clamps the index. Under the stated range of the source
   indices (every index names a row, counted from the front or, negative, from the back) the kernel's bounds mask is
   true at every edge and the two gathers are one function. -/
import proofs.«421492_j40956808135024_2_alg».proof.Defs
import proofs.«421492_j40956808135024_2_alg».proof.Proof.Gen.Kernel
import proofs.«421492_j40956808135024_2_alg».proof.Proof.Gen.Kernel.Skeleton
import proofs.«421492_j40956808135024_2_alg».proof.Proof.Gen.Kernel.Launch
import proofs.«421492_j40956808135024_2_alg».proof.Proof.Gen.Kernel.Points
import proofs.«421492_j40956808135024_2_alg».proof.Proof.Gen.Kernel.Frame
import proofs.«421492_j40956808135024_2_alg».proof.Proof.Gen.KernelIdeal
import proofs.«421492_j40956808135024_2_alg».proof.Proof.Gen.KernelIdeal.Skeleton
import proofs.«421492_j40956808135024_2_alg».proof.Proof.Gen.KernelIdeal.Launch
import proofs.«421492_j40956808135024_2_alg».proof.Proof.Gen.KernelIdeal.Points
import proofs.«421492_j40956808135024_2_alg».proof.Proof.Gen.KernelIdeal.Frame
import proofs.«421492_j40956808135024_2_alg».proof.Proof.Gen.ReferenceIdeal
import proofs.«421492_j40956808135024_2_alg».proof.Proof.Gen.Pre_finite_inputs
import proofs.«421492_j40956808135024_2_alg».proof.Proof.KRun
import proofs.«421492_j40956808135024_2_alg».proof.Proof.KernelValue
import proofs.«421492_j40956808135024_2_alg».proof.Proof.RefRunH
import proofs.«421492_j40956808135024_2_alg».proof.Proof.Mask
import Idealize.ShloMosaic.Adequacy
import Idealize.ShloMosaic.Init

noncomputable section

namespace Cert.Proof

open Idealize.ShloMosaic Idealize.SL.Sem

/-- The kernel program's run ends with the reference's last stage of the arguments in its result array (the run with
    its result named, then the value of that boundary), and the reference's run ends with the same stage of its own
    arguments, which agree with the kernel's. -/
theorem algebraic : Cert.algebraic_KernelIdeal_ReferenceIdeal := by
  intro m ρ m' ρ' hpre hagree
  refine ⟨fun c => Cert.ReferenceIdeal.ReadP.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelValue.value m ρ c (Cert.Mask.src_in_range m hpre c)), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RunH.run (F := Ideal) m' ρ')
    obtain ⟨h0, h1, h2, h3, h4, h5, h6, h7, h8, h9, h10, h11⟩ := hagree c
    rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunH.run (F := Ideal) m ρ),
  trivial,
  algebraic⟩

end Cert.Proof

end
